-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S49x256 : Shape := ⟨2, ![49, 256]⟩
abbrev S49 : Shape := ⟨1, ![49]⟩
abbrev S7x7x49 : Shape := ⟨3, ![7, 7, 49]⟩
abbrev S7x7 : Shape := ⟨2, ![7, 7]⟩
abbrev S21x49 : Shape := ⟨2, ![21, 49]⟩
abbrev S21 : Shape := ⟨1, ![21]⟩
abbrev S4x21 : Shape := ⟨2, ![4, 21]⟩
abbrev S4 : Shape := ⟨1, ![4]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S49x256 : S_.BroadcastsInDim S49x256 (![] : Fin 0 → Fin S49x256.rank)
  reducesTo_S49x256_S_d0_1 : S49x256.ReducesTo [0, 1] S_
  bcast_S_S49 : S_.BroadcastsInDim S49 (![] : Fin 0 → Fin S49.rank)
  reducesTo_S49_S_d0 : S49.ReducesTo [0] S_
  bcast_S_S7x7x49 : S_.BroadcastsInDim S7x7x49 (![] : Fin 0 → Fin S7x7x49.rank)
  reducesTo_S7x7x49_S_d0_1_2 : S7x7x49.ReducesTo [0, 1, 2] S_
  bcast_S_S7x7 : S_.BroadcastsInDim S7x7 (![] : Fin 0 → Fin S7x7.rank)
  reducesTo_S7x7_S_d0_1 : S7x7.ReducesTo [0, 1] S_
  bcast_S_S21x49 : S_.BroadcastsInDim S21x49 (![] : Fin 0 → Fin S21x49.rank)
  reducesTo_S21x49_S_d0_1 : S21x49.ReducesTo [0, 1] S_
  bcast_S_S21 : S_.BroadcastsInDim S21 (![] : Fin 0 → Fin S21.rank)
  reducesTo_S21_S_d0 : S21.ReducesTo [0] S_
  bcast_S_S4x21 : S_.BroadcastsInDim S4x21 (![] : Fin 0 → Fin S4x21.rank)
  reducesTo_S4x21_S_d0_1 : S4x21.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S21 .f32) (main_arg8 : FVec F S21 .f32) (main_arg9 : FVec F S4x21 .f32) (main_arg10 : FVec F S4 .f32) (main_v33 : IVec S_ 1) : IVec S_ 1 :=
  let main_v34 : FVec F S21 .f32 := Host.absf main_arg7
  let main_cst_12 : FVec F S_ .f32 := constant S_ .f32 0x7F800000#32
  let main_v35 : FVec F S21 .f32 := broadcastInDim S21 ![] bcast_S_S21 main_cst_12
  let main_v36 : IVec S21 1 := cmpf .olt main_v34 main_v35
  let main_c_13 : IVec S_ 1 := constantI S_ 1 1#1
  let main_v37 : IVec S_ 1 := (fun x v => Host.reduce IntOp.andi x v reducesTo_S21_S_d0 h_S_) main_v36 main_c_13
  let main_v38 : IVec S_ 1 := andi main_v33 main_v37
  let main_v39 : FVec F S21 .f32 := Host.absf main_arg8
  let main_cst_14 : FVec F S_ .f32 := constant S_ .f32 0x7F800000#32
  let main_v40 : FVec F S21 .f32 := broadcastInDim S21 ![] bcast_S_S21 main_cst_14
  let main_v41 : IVec S21 1 := cmpf .olt main_v39 main_v40
  let main_c_15 : IVec S_ 1 := constantI S_ 1 1#1
  let main_v42 : IVec S_ 1 := (fun x v => Host.reduce IntOp.andi x v reducesTo_S21_S_d0 h_S_) main_v41 main_c_15
  let main_v43 : IVec S_ 1 := andi main_v38 main_v42
  let main_v44 : FVec F S4x21 .f32 := Host.absf main_arg9
  let main_cst_16 : FVec F S_ .f32 := constant S_ .f32 0x7F800000#32
  let main_v45 : FVec F S4x21 .f32 := broadcastInDim S4x21 ![] bcast_S_S4x21 main_cst_16
  let main_v46 : IVec S4x21 1 := cmpf .olt main_v44 main_v45
  let main_c_17 : IVec S_ 1 := constantI S_ 1 1#1
  let main_v47 : IVec S_ 1 := (fun x v => Host.reduce IntOp.andi x v reducesTo_S4x21_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S7x7 .f32) (main_arg5 : FVec F S21x49 .f32) (main_arg6 : FVec F S21 .f32) (main_arg7 : FVec F S21 .f32) (main_arg8 : FVec F S21 .f32) (main_arg9 : FVec F S4x21 .f32) (main_arg10 : FVec F S4 .f32) (main_v13 : IVec S_ 1) (main_v16 : IVec S7x7x49 1) : IVec S_ 1 :=
  let main_c_5 : IVec S_ 1 := constantI S_ 1 1#1
  let main_v17 : IVec S_ 1 := (fun x v => Host.reduce IntOp.andi x v reducesTo_S7x7x49_S_d0_1_2 h_S_) main_v16 main_c_5
  let main_v18 : IVec S_ 1 := andi main_v13 main_v17
  let main_v19 : FVec F S7x7 .f32 := Host.absf main_arg4
  let main_cst_6 : FVec F S_ .f32 := constant S_ .f32 0x7F800000#32
  let main_v20 : FVec F S7x7 .f32 := broadcastInDim S7x7 ![] bcast_S_S7x7 main_cst_6
  let main_v21 : IVec S7x7 1 := cmpf .olt main_v19 main_v20
  let main_c_7 : IVec S_ 1 := constantI S_ 1 1#1
  let main_v22 : IVec S_ 1 := (fun x v => Host.reduce IntOp.andi x v reducesTo_S7x7_S_d0_1 h_S_) main_v21 main_c_7
  let main_v23 : IVec S_ 1 := andi main_v18 main_v22
  let main_v24 : FVec F S21x49 .f32 := Host.absf main_arg5
  let main_cst_8 : FVec F S_ .f32 := constant S_ .f32 0x7F800000#32
  let main_v25 : FVec F S21x49 .f32 := broadcastInDim S21x49 ![] bcast_S_S21x49 main_cst_8
  let main_v26 : IVec S21x49 1 := cmpf .olt main_v24 main_v25
  let main_c_9 : IVec S_ 1 := constantI S_ 1 1#1
  let main_v27 : IVec S_ 1 := (fun x v => Host.reduce IntOp.andi x v reducesTo_S21x49_S_d0_1 h_S_) main_v26 main_c_9
  let main_v28 : IVec S_ 1 := andi main_v23 main_v27
  let main_v29 : FVec F S21 .f32 := Host.absf main_arg6
  let main_cst_10 : FVec F S_ .f32 := constant S_ .f32 0x7F800000#32
  let main_v30 : FVec F S21 .f32 := broadcastInDim S21 ![] bcast_S_S21 main_cst_10
  let main_v31 : IVec S21 1 := cmpf .olt main_v29 main_v30
  let main_c_11 : IVec S_ 1 := constantI S_ 1 1#1
  let main_v32 : IVec S_ 1 := (fun x v => Host.reduce IntOp.andi x v reducesTo_S21_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S262144x256 .f32) (main_arg1 : FVec F S49x256 .f32) (main_arg2 : FVec F S49 .f32) (main_arg3 : FVec F S7x7x49 .f32) (main_arg4 : FVec F S7x7 .f32) (main_arg5 : FVec F S21x49 .f32) (main_arg6 : FVec F S21 .f32) (main_arg7 : FVec F S21 .f32) (main_arg8 : FVec F S21 .f32) (main_arg9 : FVec F S4x21 .f32) (main_arg10 : FVec F S4 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S49x256 .f32 := Host.absf main_arg1
  let main_cst_0 : FVec F S_ .f32 := constant S_ .f32 0x7F800000#32
  let main_v5 : FVec F S49x256 .f32 := broadcastInDim S49x256 ![] bcast_S_S49x256 main_cst_0
  let main_v6 : IVec S49x256 1 := cmpf .olt main_v4 main_v5
  let main_c_1 : IVec S_ 1 := constantI S_ 1 1#1
  let main_v7 : IVec S_ 1 := (fun x v => Host.reduce IntOp.andi x v reducesTo_S49x256_S_d0_1 h_S_) main_v6 main_c_1
  let main_v8 : IVec S_ 1 := andi main_v3 main_v7
  let main_v9 : FVec F S49 .f32 := Host.absf main_arg2
  let main_cst_2 : FVec F S_ .f32 := constant S_ .f32 0x7F800000#32
  let main_v10 : FVec F S49 .f32 := broadcastInDim S49 ![] bcast_S_S49 main_cst_2
  let main_v11 : IVec S49 1 := cmpf .olt main_v9 main_v10
  let main_c_3 : IVec S_ 1 := constantI S_ 1 1#1
  let main_v12 : IVec S_ 1 := (fun x v => Host.reduce IntOp.andi x v reducesTo_S49_S_d0 h_S_) main_v11 main_c_3
  let main_v13 : IVec S_ 1 := andi main_v8 main_v12
  let main_v14 : FVec F S7x7x49 .f32 := Host.absf main_arg3
  let main_cst_4 : FVec F S_ .f32 := constant S_ .f32 0x7F800000#32
  let main_v15 : FVec F S7x7x49 .f32 := broadcastInDim S7x7x49 ![] bcast_S_S7x7x49 main_cst_4
  let main_v16 : IVec S7x7x49 1 := cmpf .olt main_v14 main_v15
  fn_part1 (F := F) main_arg4 main_arg5 main_arg6 main_arg7 main_arg8 main_arg9 main_arg10 main_v13 main_v16
-- ==== Kernel.lean ====
abbrev S262144x256 : Shape := ⟨2, ![262144, 256]⟩
abbrev S49x256 : Shape := ⟨2, ![49, 256]⟩
abbrev S49 : Shape := ⟨1, ![49]⟩
abbrev S7x7x49 : Shape := ⟨3, ![7, 7, 49]⟩
abbrev S7x7 : Shape := ⟨2, ![7, 7]⟩
abbrev S21x49 : Shape := ⟨2, ![21, 49]⟩
abbrev S21 : Shape := ⟨1, ![21]⟩
abbrev S4x21 : Shape := ⟨2, ![4, 21]⟩
abbrev S4 : Shape := ⟨1, ![4]⟩
abbrev S1x49 : Shape := ⟨2, ![1, 49]⟩
abbrev S49x49 : Shape := ⟨2, ![49, 49]⟩
abbrev S1x21 : Shape := ⟨2, ![1, 21]⟩
abbrev S1x4 : Shape := ⟨2, ![1, 4]⟩
abbrev S262144x4 : Shape := ⟨2, ![262144, 4]⟩
abbrev S2048x256 : Shape := ⟨2, ![2048, 256]⟩
abbrev S2048x4 : Shape := ⟨2, ![2048, 4]⟩
abbrev S256x49 : Shape := ⟨2, ![256, 49]⟩
abbrev S2048x49 : Shape := ⟨2, ![2048, 49]⟩
abbrev S49x21 : Shape := ⟨2, ![49, 21]⟩
abbrev S2048x21 : Shape := ⟨2, ![2048, 21]⟩
abbrev S2048 : Shape := ⟨1, ![2048]⟩
abbrev S2048x1 : Shape := ⟨2, ![2048, 1]⟩
abbrev S21x4 : Shape := ⟨2, ![21, 4]⟩

abbrev nBuf : Space → Nat
  | .hbm => 19
  | .vmem => 14
  | .smem => 0
  | _ => 0

abbrev bufTy : (tb : Table) → Fin (tcTables nBuf tb) → BufTy
  | .hbm, ⟨0, _⟩ => ⟨S262144x256, .f32⟩
  | .hbm, ⟨1, _⟩ => ⟨S49x256, .f32⟩
  | .hbm, ⟨2, _⟩ => ⟨S49, .f32⟩
  | .hbm, ⟨3, _⟩ => ⟨S7x7x49, .f32⟩
  | .hbm, ⟨4, _⟩ => ⟨S7x7, .f32⟩
  | .hbm, ⟨5, _⟩ => ⟨S21x49, .f32⟩
  | .hbm, ⟨6, _⟩ => ⟨S21, .f32⟩
  | .hbm, ⟨7, _⟩ => ⟨S21, .f32⟩
  | .hbm, ⟨8, _⟩ => ⟨S21, .f32⟩
  | .hbm, ⟨9, _⟩ => ⟨S4x21, .f32⟩
  | .hbm, ⟨10, _⟩ => ⟨S4, .f32⟩
  | .hbm, ⟨11, _⟩ => ⟨S1x49, .f32⟩
  | .hbm, ⟨12, _⟩ => ⟨S49x49, .f32⟩
  | .hbm, ⟨13, _⟩ => ⟨S1x49, .f32⟩
  | .hbm, ⟨14, _⟩ => ⟨S1x21, .f32⟩
  | .hbm, ⟨15, _⟩ => ⟨S1x21, .f32⟩
  | .hbm, ⟨16, _⟩ => ⟨S1x21, .f32⟩
  | .hbm, ⟨17, _⟩ => ⟨S1x4, .f32⟩
  | .hbm, ⟨18, _⟩ => ⟨S262144x4, .f32⟩
  | .local _ .vmem, ⟨0, _⟩ => ⟨S2048x256, .f32⟩
  | .local _ .vmem, ⟨1, _⟩ => ⟨S2048x256, .f32⟩
  | .local _ .vmem, ⟨2, _⟩ => ⟨S49x256, .f32⟩
  | .local _ .vmem, ⟨3, _⟩ => ⟨S1x49, .f32⟩
  | .local _ .vmem, ⟨4, _⟩ => ⟨S49x49, .f32⟩
  | .local _ .vmem, ⟨5, _⟩ => ⟨S1x49, .f32⟩
  | .local _ .vmem, ⟨6, _⟩ => ⟨S21x49, .f32⟩
  | .local _ .vmem, ⟨7, _⟩ => ⟨S1x21, .f32⟩
  | .local _ .vmem, ⟨8, _⟩ => ⟨S1x21, .f32⟩
  | .local _ .vmem, ⟨9, _⟩ => ⟨S1x21, .f32⟩
  | .local _ .vmem, ⟨10, _⟩ => ⟨S4x21, .f32⟩
  | .local _ .vmem, ⟨11, _⟩ => ⟨S1x4, .f32⟩
  | .local _ .vmem, ⟨12, _⟩ => ⟨S2048x4, .f32⟩
  | .local _ .vmem, ⟨13, _⟩ => ⟨S2048x4, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x49 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x49 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S21x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x21 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x21 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x21 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x21 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S49_S1x49 : S49.ShapeCasts S1x49
  shapeCasts_S7x7x49_S49x49 : S7x7x49.ShapeCasts S49x49
  shapeCasts_S7x7_S1x49 : S7x7.ShapeCasts S1x49
  shapeCasts_S21_S1x21 : S21.ShapeCasts S1x21
  shapeCasts_S4_S1x4 : S4.ShapeCasts S1x4
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S49x256_S49x256_0_0 : ∀ a, (![0, 0] : Fin 2 → Nat) a + S49x256.size a ≤ S49x256.size a
  h_S49x256 : 0 < S49x256.numel
  transposes_S49x256_p1_0_S256x49 : S49x256.Transposes [1, 0] S256x49
  inb_S1x49_S1x49_0_0 : ∀ a, (![0, 0] : Fin 2 → Nat) a + S1x49.size a ≤ S1x49.size a
  h_S1x49 : 0 < S1x49.numel
  shapeCasts_S1x49_S1x49 : S1x49.ShapeCasts S1x49
  broadcasts_S1x49_S2048x49 : S1x49.Broadcasts S2048x49
  inb_S49x49_S49x49_0_0 : ∀ a, (![0, 0] : Fin 2 → Nat) a + S49x49.size a ≤ S49x49.size a
  h_S49x49 : 0 < S49x49.numel
  shapeCasts_S49x49_S49x49 : S49x49.ShapeCasts S49x49
  transposes_S49x49_p1_0_S49x49 : S49x49.Transposes [1, 0] S49x49
  inb_S21x49_S21x49_0_0 : ∀ a, (![0, 0] : Fin 2 → Nat) a + S21x49.size a ≤ S21x49.size a
  h_S21x49 : 0 < S21x49.numel
  transposes_S21x49_p1_0_S49x21 : S21x49.Transposes [1, 0] S49x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S2048x21 : S1x21.Broadcasts S2048x21
  reduces_S2048x21_S2048 : S2048x21.Reduces [1] S2048
  shapeCasts_S2048_S2048x1 : S2048.ShapeCasts S2048x1
  broadcasts_S2048x1_S2048x21 : S2048x1.Broadcasts S2048x21
  inb_S4x21_S4x21_0_0 : ∀ a, (![0, 0] : Fin 2 → Nat) a + S4x21.size a ≤ S4x21.size a
  h_S4x21 : 0 < S4x21.numel
  transposes_S4x21_p1_0_S21x4 : S4x21.Transposes [1, 0] S21x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  dot_S2048x256_S256x49_S2048x49_1_0_0_1_n_n_wf : DotDims.WF S2048x256 S256x49 S2048x49 [1] [0] [0] [1] [] []
  dot_S2048x49_S49x49_S2048x49_1_0_0_1_n_n_wf : DotDims.WF S2048x49 S49x49 S2048x49 [1] [0] [0] [1] [] []
  dot_S2048x49_S49x21_S2048x21_1_0_0_1_n_n_wf : DotDims.WF S2048x49 S49x21 S2048x21 [1] [0] [0] [1] [] []
  dot_S2048x21_S21x4_S2048x4_1_0_0_1_n_n_wf : DotDims.WF S2048x21 S21x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S49x256.size a ≤ S49x256.size a
  hwx0_1 : ∀ i : grid0.Coords, EltTy.bits .f32 = 32 ∨ (Rect.block (s := S49x256) S49x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x49.size a ≤ S1x49.size a
  hwx0_2 : ∀ i : grid0.Coords, EltTy.bits .f32 = 32 ∨ (Rect.block (s := S1x49) S1x49.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S49x49.size a ≤ S49x49.size a
  hwx0_3 : ∀ i : grid0.Coords, EltTy.bits .f32 = 32 ∨ (Rect.block (s := S49x49) S49x49.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x49.size a ≤ S1x49.size a
  hwx0_4 : ∀ i : grid0.Coords, EltTy.bits .f32 = 32 ∨ (Rect.block (s := S1x49) S1x49.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S21x49.size a ≤ S21x49.size a
  hwx0_5 : ∀ i : grid0.Coords, EltTy.bits .f32 = 32 ∨ (Rect.block (s := S21x49) S21x49.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x21.size a ≤ S1x21.size a
  hwx0_6 : ∀ i : grid0.Coords, EltTy.bits .f32 = 32 ∨ (Rect.block (s := S1x21) S1x21.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x21.size a ≤ S1x21.size a
  hwx0_7 : ∀ i : grid0.Coords, EltTy.bits .f32 = 32 ∨ (Rect.block (s := S1x21) S1x21.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x21.size a ≤ S1x21.size a
  hwx0_8 : ∀ i : grid0.Coords, EltTy.bits .f32 = 32 ∨ (Rect.block (s := S1x21) S1x21.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x21.size a ≤ S4x21.size a
  hwx0_9 : ∀ i : grid0.Coords, EltTy.bits .f32 = 32 ∨ (Rect.block (s := S4x21) S4x21.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4.size a ≤ S1x4.size a
  hwx0_10 : ∀ i : grid0.Coords, EltTy.bits .f32 = 32 ∨ (Rect.block (s := S1x4) S1x4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x4.size a ≤ S262144x4.size a
  hwx0_11 : ∀ i : grid0.Coords, EltTy.bits .f32 = 32 ∨ (Rect.block (s := S262144x4) S2048x4.size (cc0_transform_11 i) (hinb0_11 i)).WholeWords (EltTy.packing .f32)

variable [Facts₀]

def dot_S2048x256_S256x49_S2048x49_1_0_0_1_n_n : DotDims S2048x256 S256x49 S2048x49 where
  lhsContracting := [1]
  rhsContracting := [0]
  lhsNonContracting := [0]
  rhsNonContracting := [1]
  lhsBatch := []
  rhsBatch := []
  wf := dot_S2048x256_S256x49_S2048x49_1_0_0_1_n_n_wf
def dot_S2048x49_S49x49_S2048x49_1_0_0_1_n_n : DotDims S2048x49 S49x49 S2048x49 where
  lhsContracting := [1]
  rhsContracting := [0]
  lhsNonContracting := [0]
  rhsNonContracting := [1]
  lhsBatch := []
  rhsBatch := []
  wf := dot_S2048x49_S49x49_S2048x49_1_0_0_1_n_n_wf
def dot_S2048x49_S49x21_S2048x21_1_0_0_1_n_n : DotDims S2048x49 S49x21 S2048x21 where
  lhsContracting := [1]
  rhsContracting := [0]
  lhsNonContracting := [0]
  rhsNonContracting := [1]
  lhsBatch := []
  rhsBatch := []
  wf := dot_S2048x49_S49x21_S2048x21_1_0_0_1_n_n_wf
def dot_S2048x21_S21x4_S2048x4_1_0_0_1_n_n : DotDims S2048x21 S21x4 S2048x4 where
  lhsContracting := [1]
  rhsContracting := [0]
  lhsNonContracting := [0]
  rhsNonContracting := [1]
  lhsBatch := []
  rhsBatch := []
  wf := dot_S2048x21_S21x4_S2048x4_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S49x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x49.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x49.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S21x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x21.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x21.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x21.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x21.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S2048x4.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x256 : Shape := ⟨2, ![262144, 256]⟩
abbrev S49x256 : Shape := ⟨2, ![49, 256]⟩
abbrev S49 : Shape := ⟨1, ![49]⟩
abbrev S7x7x49 : Shape := ⟨3, ![7, 7, 49]⟩
abbrev S7x7 : Shape := ⟨2, ![7, 7]⟩
abbrev S21x49 : Shape := ⟨2, ![21, 49]⟩
abbrev S21 : Shape := ⟨1, ![21]⟩
abbrev S4x21 : Shape := ⟨2, ![4, 21]⟩
abbrev S4 : Shape := ⟨1, ![4]⟩
abbrev S256x49 : Shape := ⟨2, ![256, 49]⟩
abbrev S262144x49 : Shape := ⟨2, ![262144, 49]⟩
abbrev S1x49 : Shape := ⟨2, ![1, 49]⟩
abbrev S_ : Shape := ⟨0, ![]⟩
abbrev S262144x7x7 : Shape := ⟨3, ![262144, 7, 7]⟩
abbrev S1x7x7 : Shape := ⟨3, ![1, 7, 7]⟩
abbrev S49x21 : Shape := ⟨2, ![49, 21]⟩
abbrev S262144x21 : Shape := ⟨2, ![262144, 21]⟩
abbrev S1x21 : Shape := ⟨2, ![1, 21]⟩
abbrev S262144 : Shape := ⟨1, ![262144]⟩
abbrev S262144x1 : Shape := ⟨2, ![262144, 1]⟩
abbrev S21x4 : Shape := ⟨2, ![21, 4]⟩
abbrev S262144x4 : Shape := ⟨2, ![262144, 4]⟩
abbrev S1x4 : Shape := ⟨2, ![1, 4]⟩

abbrev nBuf : Space → Nat
  | .hbm => 120
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S49x256, .f32⟩
  | .hbm, ⟨2, _⟩ => ⟨S49, .f32⟩
  | .hbm, ⟨3, _⟩ => ⟨S7x7x49, .f32⟩
  | .hbm, ⟨4, _⟩ => ⟨S7x7, .f32⟩
  | .hbm, ⟨5, _⟩ => ⟨S21x49, .f32⟩
  | .hbm, ⟨6, _⟩ => ⟨S21, .f32⟩
  | .hbm, ⟨7, _⟩ => ⟨S21, .f32⟩
  | .hbm, ⟨8, _⟩ => ⟨S21, .f32⟩
  | .hbm, ⟨9, _⟩ => ⟨S4x21, .f32⟩
  | .hbm, ⟨10, _⟩ => ⟨S4, .f32⟩
  | .hbm, ⟨11, _⟩ => ⟨S256x49, .f32⟩
  | .hbm, ⟨12, _⟩ => ⟨S262144x49, .f32⟩
  | .hbm, ⟨13, _⟩ => ⟨S1x49, .f32⟩
  | .hbm, ⟨14, _⟩ => ⟨S262144x49, .f32⟩
  | .hbm, ⟨15, _⟩ => ⟨S262144x49, .f32⟩
  | .hbm, ⟨16, _⟩ => ⟨S_, .f32⟩
  | .hbm, ⟨17, _⟩ => ⟨S262144x49, .f32⟩
  | .hbm, ⟨18, _⟩ => ⟨S262144x49, .f32⟩
  | .hbm, ⟨19, _⟩ => ⟨S262144x49, .f32⟩
  | .hbm, ⟨20, _⟩ => ⟨S262144x49, .f32⟩
  | .hbm, ⟨21, _⟩ => ⟨S_, .f32⟩
  | .hbm, ⟨22, _⟩ => ⟨S262144x49, .f32⟩
  | .hbm, ⟨23, _⟩ => ⟨S262144x49, .f32⟩
  | .hbm, ⟨24, _⟩ => ⟨S_, .f32⟩
  | .hbm, ⟨25, _⟩ => ⟨S262144x49, .f32⟩
  | .hbm, ⟨26, _⟩ => ⟨S262144x49, .f32⟩
  | .hbm, ⟨27, _⟩ => ⟨S_, .f32⟩
  | .hbm, ⟨28, _⟩ => ⟨S262144x49, .f32⟩
  | .hbm, ⟨29, _⟩ => ⟨S262144x49, .f32⟩
  | .hbm, ⟨30, _⟩ => ⟨S262144x49, .f32⟩
  | .hbm, ⟨31, _⟩ => ⟨S_, .f32⟩
  | .hbm, ⟨32, _⟩ => ⟨S262144x49, .f32⟩
  | .hbm, ⟨33, _⟩ => ⟨S262144x49, .f32⟩
  | .hbm, ⟨34, _⟩ => ⟨S262144x49, .f32⟩
  | .hbm, ⟨35, _⟩ => ⟨S262144x49, .f32⟩
  | .hbm, ⟨36, _⟩ => ⟨S262144x7x7, .f32⟩
  | .hbm, ⟨37, _⟩ => ⟨S1x7x7, .f32⟩
  | .hbm, ⟨38, _⟩ => ⟨S262144x7x7, .f32⟩
  | .hbm, ⟨39, _⟩ => ⟨S262144x7x7, .f32⟩
  | .hbm, ⟨40, _⟩ => ⟨S_, .f32⟩
  | .hbm, ⟨41, _⟩ => ⟨S262144x7x7, .f32⟩
  | .hbm, ⟨42, _⟩ => ⟨S262144x7x7, .f32⟩
  | .hbm, ⟨43, _⟩ => ⟨S262144x7x7, .f32⟩
  | .hbm, ⟨44, _⟩ => ⟨S262144x7x7, .f32⟩
  | .hbm, ⟨45, _⟩ => ⟨S_, .f32⟩
  | .hbm, ⟨46, _⟩ => ⟨S262144x7x7, .f32⟩
  | .hbm, ⟨47, _⟩ => ⟨S262144x7x7, .f32⟩
  | .hbm, ⟨48, _⟩ => ⟨S_, .f32⟩
  | .hbm, ⟨49, _⟩ => ⟨S262144x7x7, .f32⟩
  | .hbm, ⟨50, _⟩ => ⟨S262144x7x7, .f32⟩
  | .hbm, ⟨51, _⟩ => ⟨S_, .f32⟩
  | .hbm, ⟨52, _⟩ => ⟨S262144x7x7, .f32⟩
  | .hbm, ⟨53, _⟩ => ⟨S262144x7x7, .f32⟩
  | .hbm, ⟨54, _⟩ => ⟨S262144x7x7, .f32⟩
  | .hbm, ⟨55, _⟩ => ⟨S_, .f32⟩
  | .hbm, ⟨56, _⟩ => ⟨S262144x7x7, .f32⟩
  | .hbm, ⟨57, _⟩ => ⟨S262144x7x7, .f32⟩
  | .hbm, ⟨58, _⟩ => ⟨S262144x7x7, .f32⟩
  | .hbm, ⟨59, _⟩ => ⟨S262144x7x7, .f32⟩
  | .hbm, ⟨60, _⟩ => ⟨S262144x49, .f32⟩
  | .hbm, ⟨61, _⟩ => ⟨S49x21, .f32⟩
  | .hbm, ⟨62, _⟩ => ⟨S262144x21, .f32⟩
  | .hbm, ⟨63, _⟩ => ⟨S1x21, .f32⟩
  | .hbm, ⟨64, _⟩ => ⟨S262144x21, .f32⟩
  | .hbm, ⟨65, _⟩ => ⟨S262144x21, .f32⟩
  | .hbm, ⟨66, _⟩ => ⟨S_, .f32⟩
  | .hbm, ⟨67, _⟩ => ⟨S262144x21, .f32⟩
  | .hbm, ⟨68, _⟩ => ⟨S262144x21, .f32⟩
  | .hbm, ⟨69, _⟩ => ⟨S262144x21, .f32⟩
  | .hbm, ⟨70, _⟩ => ⟨S262144x21, .f32⟩
  | .hbm, ⟨71, _⟩ => ⟨S_, .f32⟩
  | .hbm, ⟨72, _⟩ => ⟨S262144x21, .f32⟩
  | .hbm, ⟨73, _⟩ => ⟨S262144x21, .f32⟩
  | .hbm, ⟨74, _⟩ => ⟨S_, .f32⟩
  | .hbm, ⟨75, _⟩ => ⟨S262144x21, .f32⟩
  | .hbm, ⟨76, _⟩ => ⟨S262144x21, .f32⟩
  | .hbm, ⟨77, _⟩ => ⟨S_, .f32⟩
  | .hbm, ⟨78, _⟩ => ⟨S262144x21, .f32⟩
  | .hbm, ⟨79, _⟩ => ⟨S262144x21, .f32⟩
  | .hbm, ⟨80, _⟩ => ⟨S262144x21, .f32⟩
  | .hbm, ⟨81, _⟩ => ⟨S_, .f32⟩
  | .hbm, ⟨82, _⟩ => ⟨S262144x21, .f32⟩
  | .hbm, ⟨83, _⟩ => ⟨S262144x21, .f32⟩
  | .hbm, ⟨84, _⟩ => ⟨S262144x21, .f32⟩
  | .hbm, ⟨85, _⟩ => ⟨S262144x21, .f32⟩
  | .hbm, ⟨86, _⟩ => ⟨S_, .f32⟩
  | .hbm, ⟨87, _⟩ => ⟨S262144, .f32⟩
  | .hbm, ⟨88, _⟩ => ⟨S262144x1, .f32⟩
  | .hbm, ⟨89, _⟩ => ⟨S_, .f32⟩
  | .hbm, ⟨90, _⟩ => ⟨S262144x1, .f32⟩
  | .hbm, ⟨91, _⟩ => ⟨S262144x1, .f32⟩
  | .hbm, ⟨92, _⟩ => ⟨S262144x21, .f32⟩
  | .hbm, ⟨93, _⟩ => ⟨S262144x21, .f32⟩
  | .hbm, ⟨94, _⟩ => ⟨S262144x21, .f32⟩
  | .hbm, ⟨95, _⟩ => ⟨S_, .f32⟩
  | .hbm, ⟨96, _⟩ => ⟨S262144, .f32⟩
  | .hbm, ⟨97, _⟩ => ⟨S262144x1, .f32⟩
  | .hbm, ⟨98, _⟩ => ⟨S_, .f32⟩
  | .hbm, ⟨99, _⟩ => ⟨S262144x1, .f32⟩
  | .hbm, ⟨100, _⟩ => ⟨S262144x1, .f32⟩
  | .hbm, ⟨101, _⟩ => ⟨S262144x21, .f32⟩
  | .hbm, ⟨102, _⟩ => ⟨S262144x21, .f32⟩
  | .hbm, ⟨103, _⟩ => ⟨S_, .f32⟩
  | .hbm, ⟨104, _⟩ => ⟨S262144x1, .f32⟩
  | .hbm, ⟨105, _⟩ => ⟨S262144x1, .f32⟩
  | .hbm, ⟨106, _⟩ => ⟨S262144x1, .f32⟩
  | .hbm, ⟨107, _⟩ => ⟨S262144x21, .f32⟩
  | .hbm, ⟨108, _⟩ => ⟨S262144x21, .f32⟩
  | .hbm, ⟨109, _⟩ => ⟨S1x21, .f32⟩
  | .hbm, ⟨110, _⟩ => ⟨S262144x21, .f32⟩
  | .hbm, ⟨111, _⟩ => ⟨S262144x21, .f32⟩
  | .hbm, ⟨112, _⟩ => ⟨S1x21, .f32⟩
  | .hbm, ⟨113, _⟩ => ⟨S262144x21, .f32⟩
  | .hbm, ⟨114, _⟩ => ⟨S262144x21, .f32⟩
  | .hbm, ⟨115, _⟩ => ⟨S21x4, .f32⟩
  | .hbm, ⟨116, _⟩ => ⟨S262144x4, .f32⟩
  | .hbm, ⟨117, _⟩ => ⟨S1x4, .f32⟩
  | .hbm, ⟨118, _⟩ => ⟨S262144x4, .f32⟩
  | .hbm, ⟨119, _⟩ => ⟨S262144x4, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  transposes_S49x256_S256x49_1_0 : S49x256.Transposes [1, 0] S256x49
  bcast_S49_S1x49_1 : S49.BroadcastsInDim S1x49 (![1] : Fin 1 → Fin S1x49.rank)
  bcast_S1x49_S262144x49_0_1 : S1x49.BroadcastsInDim S262144x49 (![0, 1] : Fin 2 → Fin S262144x49.rank)
  bcast_S_S262144x49 : S_.BroadcastsInDim S262144x49 (![] : Fin 0 → Fin S262144x49.rank)
  bcast_S7x7_S1x7x7_1_2 : S7x7.BroadcastsInDim S1x7x7 (![1, 2] : Fin 2 → Fin S1x7x7.rank)
  bcast_S1x7x7_S262144x7x7_0_1_2 : S1x7x7.BroadcastsInDim S262144x7x7 (![0, 1, 2] : Fin 3 → Fin S262144x7x7.rank)
  bcast_S_S262144x7x7 : S_.BroadcastsInDim S262144x7x7 (![] : Fin 0 → Fin S262144x7x7.rank)
  shapeCasts_S262144x7x7_S262144x49 : S262144x7x7.ShapeCasts S262144x49
  transposes_S21x49_S49x21_1_0 : S21x49.Transposes [1, 0] S49x21
  bcast_S21_S1x21_1 : S21.BroadcastsInDim S1x21 (![1] : Fin 1 → Fin S1x21.rank)
  bcast_S1x21_S262144x21_0_1 : S1x21.BroadcastsInDim S262144x21 (![0, 1] : Fin 2 → Fin S262144x21.rank)
  bcast_S_S262144x21 : S_.BroadcastsInDim S262144x21 (![] : Fin 0 → Fin S262144x21.rank)
  reducesTo_S262144x21_S262144_d1 : S262144x21.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x21_0_1 : S262144x1.BroadcastsInDim S262144x21 (![0, 1] : Fin 2 → Fin S262144x21.rank)
  transposes_S4x21_S21x4_1_0 : S4x21.Transposes [1, 0] S21x4
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  dot_S262144x256_S256x49_S262144x49_1_0_0_1_n_n_wf : DotDims.WF S262144x256 S256x49 S262144x49 [1] [0] [0] [1] [] []
  dot_S262144x49_S7x7x49_S262144x7x7_1_2_0_01_n_n_wf : DotDims.WF S262144x49 S7x7x49 S262144x7x7 [1] [2] [0] [0, 1] [] []
  dot_S262144x49_S49x21_S262144x21_1_0_0_1_n_n_wf : DotDims.WF S262144x49 S49x21 S262144x21 [1] [0] [0] [1] [] []
  dot_S262144x21_S21x4_S262144x4_1_0_0_1_n_n_wf : DotDims.WF S262144x21 S21x4 S262144x4 [1] [0] [0] [1] [] []

variable [Facts₀]

def dot_S262144x256_S256x49_S262144x49_1_0_0_1_n_n : DotDims S262144x256 S256x49 S262144x49 where
  lhsContracting := [1]
  rhsContracting := [0]
  lhsNonContracting := [0]
  rhsNonContracting := [1]
  lhsBatch := []
  rhsBatch := []
  wf := dot_S262144x256_S256x49_S262144x49_1_0_0_1_n_n_wf
def dot_S262144x49_S7x7x49_S262144x7x7_1_2_0_01_n_n : DotDims S262144x49 S7x7x49 S262144x7x7 where
  lhsContracting := [1]
  rhsContracting := [2]
  lhsNonContracting := [0]
  rhsNonContracting := [0, 1]
  lhsBatch := []
  rhsBatch := []
  wf := dot_S262144x49_S7x7x49_S262144x7x7_1_2_0_01_n_n_wf
def dot_S262144x49_S49x21_S262144x21_1_0_0_1_n_n : DotDims S262144x49 S49x21 S262144x21 where
  lhsContracting := [1]
  rhsContracting := [0]
  lhsNonContracting := [0]
  rhsNonContracting := [1]
  lhsBatch := []
  rhsBatch := []
  wf := dot_S262144x49_S49x21_S262144x21_1_0_0_1_n_n_wf
def dot_S262144x21_S21x4_S262144x4_1_0_0_1_n_n : DotDims S262144x21 S21x4 S262144x4 where
  lhsContracting := [1]
  rhsContracting := [0]
  lhsNonContracting := [0]
  rhsNonContracting := [1]
  lhsBatch := []
  rhsBatch := []
  wf := dot_S262144x21_S21x4_S262144x4_1_0_0_1_n_n_wf

class Facts : Prop extends Facts₀ where

variable [Facts]
-- ==== Proof.Spec.lean ====
/-
  The network one row at a time, on the extended reals.

  Both programs send each row x of the input (256 numbers) through the same chain, and no row sees another:
    a  = act (W₁ x + b₁)                 49 numbers
    c  = act (W₂ a + b₂)                 49 numbers (seven groups of seven, laid side by side)
    g  = act (W₃ c + b₃)                 21 numbers
    n  = (g − mean g) · rsqrt (mean ((g − mean g)²) + ε) · γ + β      (the means over the 21 entries)
    o  = W₄ n + b₄                       4 numbers
  where act s = logistic (s / φ) · (s · φ / (1 + |s|)) and every product W v is a finite sum over the shared
  index. This file states that chain once (`rowCore`), over weight tables indexed by plain coordinates, and the
  whole result array (`G`) as the chain applied to each row of the input array.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Spec

open Idealize.ShloMosaic Idealize.ShloMosaic.ValueIdx

/-- The scale φ of the activation, as both programs spell it. -/
abbrev golden : EReal := Ideal.ofBits .f32 0x3FCF1BBD#32
/-- The literal 1.0. -/
abbrev unit : EReal := Ideal.ofBits .f32 0x3F800000#32
/-- The literal 21.0, the number of entries a mean is taken over. -/
abbrev width : EReal := Ideal.ofBits .f32 0x41A80000#32
/-- The ε under the reciprocal square root. -/
abbrev eps : EReal := Ideal.ofBits .f32 0x3727C5AC#32

/-- The literal 1.0 denotes the extended real 1. -/
theorem unit_eq_one : unit = 1 := IdealRules.sign_bit.ideal_onePat .f32

/-- The activation: logistic (s / φ) · (s · φ / (1 + |s|)), with |s| = max s (−s). -/
def act (s : EReal) : EReal :=
  Ideal.logistic (Ideal.div s golden) * Ideal.div (s * golden) (unit + max s (-s))

/-- The same activation with the logistic function written out as 1 / (1 + e^(−t)): the logistic function IS that
    quotient on every extended real, and the literal 1.0 is 1. -/
theorem act_expanded (s : EReal) :
    Ideal.div unit (unit + Ideal.exp (-(Ideal.div s golden))) * Ideal.div (s * golden) (unit + max s (-s)) = act s := by
  simp only [act, Ideal.logistic, unit_eq_one]

/-- One affine layer at one output coordinate: the sum over the shared index of input times weight, plus the bias. -/
def layer {K N : ℕ} (v : Fin K → EReal) (W : Fin N → Fin K → EReal) (b : Fin N → EReal) (j : Fin N) : EReal :=
  (∑ k : Fin K, v k * W j k) + b j

/-- A layer read at one output coordinate depends only on the inputs, on that coordinate's weight row and on its bias. -/
theorem layer_congr {K N : ℕ} {v v' : Fin K → EReal} {W W' : Fin N → Fin K → EReal} {b b' : Fin N → EReal} {j : Fin N}
    (hv : ∀ k, v k = v' k) (hW : ∀ k, W j k = W' j k) (hb : b j = b' j) : layer v W b j = layer v' W' b' j := by
  unfold layer
  rw [hb]
  exact congrArg (· + b' j) (Finset.sum_congr rfl fun k _ => by rw [hv k, hW k])

/-- The mean of 21 numbers: their sum over the literal 21.0. -/
def mean (g : Fin 21 → EReal) : EReal := Ideal.div (∑ l : Fin 21, g l) width

/-- The normalisation over the 21 entries, then the scale γ and the shift β. -/
def norm (g gam bet : Fin 21 → EReal) (l : Fin 21) : EReal :=
  (g l - mean g) * Ideal.rsqrt (mean (fun l' => (g l' - mean g) * (g l' - mean g)) + eps) * gam l + bet l

/-- The normalisation depends only on the entries it is given. -/
theorem norm_congr {g g' : Fin 21 → EReal} (gam bet : Fin 21 → EReal) (h : ∀ l, g l = g' l) (l : Fin 21) :
    norm g gam bet l = norm g' gam bet l := by
  rw [show g = g' from funext h]

/-- The whole chain on one row. -/
def rowCore (x : Fin 256 → EReal) (W1 : Fin 49 → Fin 256 → EReal) (b1 : Fin 49 → EReal)
    (W2 : Fin 49 → Fin 49 → EReal) (b2 : Fin 49 → EReal) (W3 : Fin 21 → Fin 49 → EReal) (b3 gam bet : Fin 21 → EReal)
    (W4 : Fin 4 → Fin 21 → EReal) (b4 : Fin 4 → EReal) (q : Fin 4) : EReal :=
  layer (norm (fun l => act (layer (fun j => act (layer (fun i => act (layer x W1 b1 i)) W2 b2 j)) W3 b3 l)) gam bet) W4 b4 q

/-- The chain read at one output coordinate depends only on the entries of the row and of the tables. -/
theorem rowCore_congr {x x' : Fin 256 → EReal} {W1 W1' : Fin 49 → Fin 256 → EReal} {b1 b1' : Fin 49 → EReal}
    {W2 W2' : Fin 49 → Fin 49 → EReal} {b2 b2' : Fin 49 → EReal} {W3 W3' : Fin 21 → Fin 49 → EReal}
    {b3 b3' gam gam' bet bet' : Fin 21 → EReal} {W4 W4' : Fin 4 → Fin 21 → EReal} {b4 b4' : Fin 4 → EReal} {q q' : Fin 4}
    (hx : ∀ k, x k = x' k) (hW1 : ∀ a k, W1 a k = W1' a k) (hb1 : ∀ a, b1 a = b1' a) (hW2 : ∀ a k, W2 a k = W2' a k)
    (hb2 : ∀ a, b2 a = b2' a) (hW3 : ∀ a k, W3 a k = W3' a k) (hb3 : ∀ a, b3 a = b3' a) (hgam : ∀ a, gam a = gam' a)
    (hbet : ∀ a, bet a = bet' a) (hW4 : ∀ a k, W4 a k = W4' a k) (hb4 : ∀ a, b4 a = b4' a) (hq : q = q') :
    rowCore x W1 b1 W2 b2 W3 b3 gam bet W4 b4 q = rowCore x' W1' b1' W2' b2' W3' b3' gam' bet' W4' b4' q' := by
  rw [show x = x' from funext hx, show W1 = W1' from funext fun a => funext (hW1 a), show b1 = b1' from funext hb1,
    show W2 = W2' from funext fun a => funext (hW2 a), show b2 = b2' from funext hb2,
    show W3 = W3' from funext fun a => funext (hW3 a), show b3 = b3' from funext hb3, show gam = gam' from funext hgam,
    show bet = bet' from funext hbet, show W4 = W4' from funext fun a => funext (hW4 a), show b4 = b4' from funext hb4, hq]

/-- A position 0 ≤ j < 49 among seven groups of seven: its group … -/
def hi7 (j : Fin 49) : Fin 7 := ⟨j.val / 7, by omega⟩
/-- … and its place inside the group. -/
def lo7 (j : Fin 49) : Fin 7 := ⟨j.val % 7, by omega⟩

theorem hi7_lo7 (j : Fin 49) : (hi7 j).val * 7 + (lo7 j).val = j.val := by
  show j.val / 7 * 7 + j.val % 7 = j.val
  omega

/-- The result array: the chain on each row of the input array, the second layer's weights read group by group. -/
def G (x : (⟨2, ![262144, 256]⟩ : Shape).Idx → EReal) (Win : (⟨2, ![49, 256]⟩ : Shape).Idx → EReal)
    (bin : (⟨1, ![49]⟩ : Shape).Idx → EReal) (Wn : (⟨3, ![7, 7, 49]⟩ : Shape).Idx → EReal)
    (bn : (⟨2, ![7, 7]⟩ : Shape).Idx → EReal) (Wint : (⟨2, ![21, 49]⟩ : Shape).Idx → EReal)
    (bint gam bet : (⟨1, ![21]⟩ : Shape).Idx → EReal) (Wout : (⟨2, ![4, 21]⟩ : Shape).Idx → EReal)
    (bout : (⟨1, ![4]⟩ : Shape).Idx → EReal) : (⟨2, ![262144, 4]⟩ : Shape).Idx → EReal :=
  fun i => rowCore (fun k => x (ix2 (i 0) k)) (fun a k => Win (ix2 a k)) (fun a => bin (ix1 a))
    (fun j a => Wn (ix3 (hi7 j) (lo7 j) a)) (fun j => bn (ix2 (hi7 j) (lo7 j))) (fun l j => Wint (ix2 l j))
    (fun l => bint (ix1 l)) (fun l => gam (ix1 l)) (fun l => bet (ix1 l)) (fun q l => Wout (ix2 q l))
    (fun q => bout (ix1 q)) (i 1)

end Cert.Spec

end
-- ==== Proof.LibRowDots.lean ====
/-
  MATRIX PRODUCTS WHOSE RESULT ROW COMES FROM THE LEFT OPERAND'S ROW, READ AT AN INDEX (general lemmas; they mention no
  program).

  Two layouts of the right operand, both without batch axes and with one contracted axis of extent K:

  * PLAIN, [M, K] × [K, N] → [M, N]: the left operand's axis 1 is contracted with the right operand's axis 0. The left
    index at result index (i, j) and contraction position k is (i, k), the right index is (k, j).
  * GROUPED, [M, K] × [A, B, K] → [M, A, B]: the left operand's axis 1 is contracted with the right operand's axis 2;
    the right operand's two leading axes become the result's two trailing axes. The left index at result index
    (i, a, b) and contraction position k is (i, k), the right index is (a, b, k).

  In both the contraction index set has one axis, so it is Fin K, and on the extended reals the product is the finite
  sum over k of the operands' entries' products — for a product accumulated into zero and for the accumulator-free
  general dot alike.
-/
import Idealize.ShloMosaic.PureOps.Ideal.Laws
import Idealize.ShloMosaic.Lib.ValueIdx

noncomputable section

open scoped BigOperators

namespace Cert.Lib.RowDots

open Idealize.ShloMosaic Idealize.ShloMosaic.ValueIdx

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

/-! ## Plain: [M, K] × [K, N] → [M, N] -/

section Plain

variable {M K N : Nat} (d : DotDims (⟨2, ![M, K]⟩ : Shape) (⟨2, ![K, N]⟩ : Shape) (⟨2, ![M, N]⟩ : Shape))

/-- The dimension numbers of x · w: contract left axis 1 with right axis 0, keep left axis 0 and right axis 1, no
    batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem Plain.contr_rank (h : Plain d) : d.contr.rank = 1 := by rw [d.rank_contr, h.lc]; rfl

theorem Plain.contr_size (h : Plain d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem Plain.lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
theorem Plain.lhs_col (h : Plain d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the contraction position. -/
theorem Plain.rhs_row (h : Plain d) (j : (⟨2, ![M, N]⟩ : Shape).Idx) (q : d.contr.Idx) :
    (d.rhsIdx j q 0).val = (q ⟨0, by rw [h.contr_rank]; exact Nat.one_pos⟩).val :=
  d.rhsIdx_val_of_single h.rc j q

/-- The right operand's column is the result's column. -/
theorem Plain.rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The contraction's sum, re-indexed by the one contracted coordinate. -/
theorem Plain.sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 k (j 1) := funext fun a => Fin.ext (by
    match a with
    | ⟨0, _⟩ => exact (h.rhs_row _ _).trans hk
    | ⟨1, _⟩ => exact h.rhs_col _ _)
  exact congrArg₂ (· * ·) (congrArg l el) (congrArg r er)

/-- The product into the zero accumulator, at an index. -/
theorem Plain.matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (h.sum_eq l r j)

/-- The accumulator-free general dot, at an index. -/
theorem Plain.dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (h.sum_eq l r j)

end Plain

/-! ## Grouped: [M, K] × [A, B, K] → [M, A, B] -/

section Grouped

variable {M K A B : Nat} (d : DotDims (⟨2, ![M, K]⟩ : Shape) (⟨3, ![A, B, K]⟩ : Shape) (⟨3, ![M, A, B]⟩ : Shape))

/-- The dimension numbers of the product of each row with each of A · B weight rows: contract left axis 1 with right
    axis 2, keep left axis 0 and right axes 0 and 1, no batch axes. -/
structure Grouped : Prop where
  lc : d.lhsContracting = [1]
  rc : d.rhsContracting = [2]
  ln : d.lhsNonContracting = [0]
  rn : d.rhsNonContracting = [0, 1]
  lb : d.lhsBatch = []
  rb : d.rhsBatch = []

variable {d}

theorem Grouped.contr_rank (h : Grouped d) : d.contr.rank = 1 := by rw [d.rank_contr, h.lc]; rfl

theorem Grouped.contr_size (h : Grouped d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem Grouped.lhs_row (h : Grouped d) (j : (⟨3, ![M, A, B]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ (show 0 < 3 by omega) (by simp [h.lb, h.ln])

theorem Grouped.lhs_col (h : Grouped d) (j : (⟨3, ![M, A, B]⟩ : Shape).Idx) (q : d.contr.Idx) :
    (d.lhsIdx j q 1).val = (q ⟨0, by rw [h.contr_rank]; exact Nat.one_pos⟩).val :=
  d.lhsIdx_val_of_single h.lc j q

/-- The right operand's first axis is the result's second. -/
theorem Grouped.rhs_fst (h : Grouped d) (j : (⟨3, ![M, A, B]⟩ : Shape).Idx) (q : d.contr.Idx) : (d.rhsIdx j q 0).val = (j 1).val := by
  have hb : (0 : Fin (⟨3, ![A, B, K]⟩ : Shape).rank) ∉ d.rhsBatch := by rw [h.rb]; exact List.not_mem_nil
  have hn : (0 : Fin (⟨3, ![A, B, K]⟩ : Shape).rank) ∈ d.rhsNonContracting := by rw [h.rn]; simp
  unfold DotDims.rhsIdx
  rw [dif_neg hb, dif_pos hn]
  simp only [Fin.val_cast]
  exact val_congr j _ 1 _ (show 1 < 3 by omega) (by simp [h.lb, h.ln, h.rn])

/-- The right operand's second axis is the result's third. -/
theorem Grouped.rhs_snd (h : Grouped d) (j : (⟨3, ![M, A, B]⟩ : Shape).Idx) (q : d.contr.Idx) : (d.rhsIdx j q 1).val = (j 2).val := by
  have hb : (1 : Fin (⟨3, ![A, B, K]⟩ : Shape).rank) ∉ d.rhsBatch := by rw [h.rb]; exact List.not_mem_nil
  have hn : (1 : Fin (⟨3, ![A, B, K]⟩ : Shape).rank) ∈ d.rhsNonContracting := by rw [h.rn]; simp
  unfold DotDims.rhsIdx
  rw [dif_neg hb, dif_pos hn]
  simp only [Fin.val_cast]
  exact val_congr j _ 2 _ (show 2 < 3 by omega) (by simp [h.lb, h.ln, h.rn])

/-- The right operand's last axis is the contraction position. -/
theorem Grouped.rhs_last (h : Grouped d) (j : (⟨3, ![M, A, B]⟩ : Shape).Idx) (q : d.contr.Idx) :
    (d.rhsIdx j q 2).val = (q ⟨0, by rw [h.contr_rank]; exact Nat.one_pos⟩).val :=
  d.rhsIdx_val_of_single h.rc j q

theorem Grouped.sum_eq (h : Grouped d) (l : (⟨2, ![M, K]⟩ : Shape).Idx → EReal) (r : (⟨3, ![A, B, K]⟩ : Shape).Idx → EReal)
    (j : (⟨3, ![M, A, B]⟩ : Shape).Idx) :
    ∑ q : d.contr.Idx, l (d.lhsIdx j q) * r (d.rhsIdx j q) = ∑ k : Fin K, l (ix2 (j 0) k) * r (ix3 (j 1) (j 2) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix3 (j 1) (j 2) k := funext fun a => Fin.ext (by
    match a with
    | ⟨0, _⟩ => exact h.rhs_fst _ _
    | ⟨1, _⟩ => exact h.rhs_snd _ _
    | ⟨2, _⟩ => exact (h.rhs_last _ _).trans hk)
  exact congrArg₂ (· * ·) (congrArg l el) (congrArg r er)

/-- The accumulator-free general dot, at an index. -/
theorem Grouped.dotGeneral_apply (h : Grouped d) {φ₁ φ₂ : FTy} (prec : Option ContractPrecision) (sched : HostSchedule)
    (l : FVec Ideal (⟨2, ![M, K]⟩ : Shape) φ₁) (r : FVec Ideal (⟨3, ![A, B, K]⟩ : Shape) φ₂) (j : (⟨3, ![M, A, B]⟩ : Shape).Idx) :
    FloatOps.dotGeneral d prec sched l r j = ∑ k : Fin K, l (ix2 (j 0) k) * r (ix3 (j 1) (j 2) k) :=
  (Ideal.dotGeneral_apply d prec sched l r j).trans (h.sum_eq l r j)

end Grouped

end Cert.Lib.RowDots

end
-- ==== Proof.LibColumns.lean ====
/-
  KEEPDIMS COLUMN FORMS READ AT AN INDEX (general lemmas; they mention no program).

  A row reduction that keeps its axis leaves a column: an [a] vector cast to [a, 1], then broadcast along the
  second axis to [a, b]. At (i, u) the cast reads the vector at i; at (p, c) the broadcast reads the column at (p, 0).
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

end Cert.Lib.Columns
-- ==== Proof.LibRowSums.lean ====
/-
  THE SUM ALONG THE ROWS OF A MATRIX, READ AT AN INDEX (a general lemma; it mentions no program).

  A vector reduction with `add` of an [n, m] matrix over its second axis leaves an [n] vector whose entry r is, on the
  extended reals, the finite sum over l of the matrix's entries (r, l).
-/
import Idealize.ShloMosaic.PureOps.Ideal.Laws
import Idealize.ShloMosaic.Lib.ValueIdx

noncomputable section

open scoped BigOperators

namespace Cert.Lib.RowSums

open Idealize.ShloMosaic Idealize.ShloMosaic.ValueIdx

/-- Row r of an [n, m] matrix, summed: the reduction over axis 1 at r is the sum over the row's m entries. -/
theorem multiReduction_rows_apply {n m : ℕ} {φ : FTy} (src : FVec Ideal (⟨2, ![n, m]⟩ : Shape) φ) (acc : BitVec φ.bits)
    (h : (⟨2, ![n, m]⟩ : Shape).Reduces [1] (⟨1, ![n]⟩ : Shape)) (hφ : FKind.Formats φ) (hacc : acc = FKind.add.neutral φ hφ)
    (r : Fin n) :
    multiReduction .add [1] (⟨1, ![n]⟩ : Shape) src acc h hφ hacc (ix1 r) = ∑ l : Fin m, src (ix2 r l) := by
  rw [Ideal.multiReduction_add_single src acc h hφ hacc (ix1 r)]
  refine Finset.sum_congr rfl fun l _ => congrArg src (funext fun a => Fin.ext ?_)
  match a with
  | ⟨0, _⟩ => rfl
  | ⟨1, _⟩ => rfl

end Cert.Lib.RowSums

end
-- ==== Proof.KernelPay.lean ====
/-
  One grid step of the kernel, entry by entry.

  A step loads a block of 2048 rows of the input and the whole of every weight table, and stores a [2048, 4] block.
  The stored block is a pure function of the loads, in three parts: the first two layers (a [2048, 49] array), the
  third layer with the normalisation (a [2048, 21] array), and the output layer. Read at row r and column q, each part
  depends on row r of what it is given and on nothing else of it, so the stored entry (r, q) is the row chain
  `Spec.rowCore` on row r of the loaded input block.

  The pieces the parts are made of are read first, for any number of rows: the activation (pointwise), an affine layer
  (a product with the transposed weight table into a zero accumulator, plus the bias row repeated down the rows), the
  row mean (a sum along the row, kept as a column, over 21.0), and the normalisation built on it.
-/
import proofs.«165092_j81922206204364_1_alg».proof.Proof.Gen.KernelIdeal.Skeleton
import proofs.«165092_j81922206204364_1_alg».proof.Proof.Spec
import proofs.«165092_j81922206204364_1_alg».proof.Proof.LibRowDots
import proofs.«165092_j81922206204364_1_alg».proof.Proof.LibColumns
import proofs.«165092_j81922206204364_1_alg».proof.Proof.LibRowSums
import Idealize.ShloMosaic.Lib.ValueLayout
import Idealize.ShloMosaic.Lib.Pipeline.Value

noncomputable section

open scoped BigOperators

namespace Cert.KernelPay

open Idealize.ShloMosaic Idealize.ShloMosaic.ValueIdx Cert.Spec Cert.Lib.RowDots Cert.Lib.Columns Cert.Lib.RowSums
open Cert.KernelIdeal Cert.KernelIdeal.Gen

/-! ## The pieces, for any number of rows -/

/-- The activation is pointwise: at every index it is `Spec.act` of the entry. -/
theorem actV_apply {s : Shape} (v : FVec Ideal s .f32) (i : s.Idx) :
    mulf (logistic (divf v (broadcast s (Scalar.ofBits .f32 0x3FCF1BBD#32 : Ideal .f32))))
      (divf (mulf v (broadcast s (Scalar.ofBits .f32 0x3FCF1BBD#32 : Ideal .f32))) (addf (broadcast s (Scalar.ofBits .f32 0x3F800000#32 : Ideal .f32)) (absf v))) i
    = act (v i) := rfl

/-- An affine layer at (r, j): the product of the rows with the transposed weight table, accumulated into zero, plus
    the bias row repeated down the rows, is the sum over k of entry (r, k) times weight (j, k), plus bias j. -/
theorem affine_apply {M K N : ℕ} {d : DotDims (⟨2, ![M, K]⟩ : Shape) (⟨2, ![K, N]⟩ : Shape) (⟨2, ![M, N]⟩ : Shape)} (hd : Plain d)
    {φ₁ φ₂ : FTy} (l : FVec Ideal (⟨2, ![M, K]⟩ : Shape) φ₁) (w : FVec Ideal (⟨2, ![N, K]⟩ : Shape) φ₂)
    (ht : (⟨2, ![N, K]⟩ : Shape).Transposes [1, 0] (⟨2, ![K, N]⟩ : Shape)) (brow : FVec Ideal (⟨2, ![1, N]⟩ : Shape) .f32)
    (hs : (⟨2, ![1, N]⟩ : Shape).ShapeCasts (⟨2, ![1, N]⟩ : Shape)) (hb : (⟨2, ![1, N]⟩ : Shape).Broadcasts (⟨2, ![M, N]⟩ : Shape))
    (r : Fin M) (j : Fin N) :
    addf (matmul d none l (transpose (⟨2, ![K, N]⟩ : Shape) [1, 0] w ht) (constant (⟨2, ![M, N]⟩ : Shape) .f32 0x00000000#32))
        (broadcastTo (⟨2, ![M, N]⟩ : Shape) (shapeCast (⟨2, ![1, N]⟩ : Shape) brow hs) hb) (ix2 r j)
      = layer (fun k => l (ix2 r k)) (fun a k => w (ix2 a k)) (fun a => brow (ix2 (0 : Fin 1) a)) j := by
  show FloatOps.matmul d none l (transpose (⟨2, ![K, N]⟩ : Shape) [1, 0] w ht) (constant (⟨2, ![M, N]⟩ : Shape) .f32 0x00000000#32) (ix2 r j)
      + broadcastTo (⟨2, ![M, N]⟩ : Shape) (shapeCast (⟨2, ![1, N]⟩ : Shape) brow hs) hb (ix2 r j) = _
  rw [hd.matmul_zero_apply, broadcastTo_1b_ab_apply, shapeCast_self]
  refine congrArg (· + brow (ix2 (0 : Fin 1) j)) (Finset.sum_congr rfl fun k _ => ?_)
  show l (ix2 r k) * transpose (⟨2, ![K, N]⟩ : Shape) [1, 0] w ht (ix2 k j) = l (ix2 r k) * w (ix2 j k)
  rw [transpose_ix2_apply]

/-- The row mean, kept as a column: at (r, ·) it is `Spec.mean` of row r. -/
theorem meanV_apply {n : ℕ} (g : FVec Ideal (⟨2, ![n, 21]⟩ : Shape) .f32)
    (h : (⟨2, ![n, 21]⟩ : Shape).Reduces [1] (⟨1, ![n]⟩ : Shape)) (hφ : FKind.Formats .f32) (hacc : (0x00000000#32 : BitVec 32) = FKind.add.neutral .f32 hφ)
    (hs : (⟨1, ![n]⟩ : Shape).ShapeCasts (⟨2, ![n, 1]⟩ : Shape)) (r : Fin n) (u : Fin 1) :
    (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) (ix2 r u) = mean (fun l => g (ix2 r l)) := by
  show Ideal.div (shapeCast (⟨2, ![n, 1]⟩ : Shape) (multiReduction .add [1] (⟨1, ![n]⟩ : Shape) g 0x00000000#32 h hφ hacc) hs (ix2 r u)) width = _
  rw [shapeCast_a_a1_apply, multiReduction_rows_apply]
  rfl

/-- The entries less their row's mean. -/
theorem centredV_apply {n : ℕ} (g : FVec Ideal (⟨2, ![n, 21]⟩ : Shape) .f32)
    (h : (⟨2, ![n, 21]⟩ : Shape).Reduces [1] (⟨1, ![n]⟩ : Shape)) (hφ : FKind.Formats .f32) (hacc : (0x00000000#32 : BitVec 32) = FKind.add.neutral .f32 hφ)
    (hs : (⟨1, ![n]⟩ : Shape).ShapeCasts (⟨2, ![n, 1]⟩ : Shape)) (hbc : (⟨2, ![n, 1]⟩ : Shape).Broadcasts (⟨2, ![n, 21]⟩ : Shape)) (r : Fin n) (l : Fin 21) :
    (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (ix2 r l) = g (ix2 r l) - mean (fun l' => g (ix2 r l')) := by
  show g (ix2 r l) - broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc (ix2 r l) = _
  rw [broadcastTo_a1_ab_apply, meanV_apply]

/-- The normalisation at (r, l) is `Spec.norm` of row r: the centred entry times the reciprocal square root of the
    centred squares' mean plus ε, scaled and shifted by the two parameter rows. -/
theorem normV_apply {n : ℕ} (g : FVec Ideal (⟨2, ![n, 21]⟩ : Shape) .f32)
    (h : (⟨2, ![n, 21]⟩ : Shape).Reduces [1] (⟨1, ![n]⟩ : Shape)) (hφ : FKind.Formats .f32) (hacc : (0x00000000#32 : BitVec 32) = FKind.add.neutral .f32 hφ)
    (hs : (⟨1, ![n]⟩ : Shape).ShapeCasts (⟨2, ![n, 1]⟩ : Shape)) (hbc : (⟨2, ![n, 1]⟩ : Shape).Broadcasts (⟨2, ![n, 21]⟩ : Shape))
    (gam bet : FVec Ideal (⟨2, ![1, 21]⟩ : Shape) .f32) (hs1 : (⟨2, ![1, 21]⟩ : Shape).ShapeCasts (⟨2, ![1, 21]⟩ : Shape)) (hb1 : (⟨2, ![1, 21]⟩ : Shape).Broadcasts (⟨2, ![n, 21]⟩ : Shape))
    (r : Fin n) (l : Fin 21) :
    (addf (mulf (mulf (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (broadcastTo (⟨2, ![n, 21]⟩ : Shape) (rsqrt (addf (divf (shapeCast (⟨2, ![n, 1]⟩ : Shape) (multiReduction .add [1] (⟨1, ![n]⟩ : Shape) (mulf (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc))) 0x00000000#32 h hφ hacc) hs) (broadcast (⟨2, ![n, 1]⟩ : Shape) (Scalar.ofBits .f32 0x41A80000#32 : Ideal .f32))) (broadcast (⟨2, ![n, 1]⟩ : Shape) (Scalar.ofBits .f32 0x3727C5AC#32 : Ideal .f32)))) hbc)) (broadcastTo (⟨2, ![n, 21]⟩ : Shape) (shapeCast (⟨2, ![1, 21]⟩ : Shape) gam hs1) hb1)) (broadcastTo (⟨2, ![n, 21]⟩ : Shape) (shapeCast (⟨2, ![1, 21]⟩ : Shape) bet hs1) hb1)) (ix2 r l)
      = norm (fun l' => g (ix2 r l')) (fun l' => gam (ix2 (0 : Fin 1) l')) (fun l' => bet (ix2 (0 : Fin 1) l')) l := by
  show (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (ix2 r l)
        * broadcastTo (⟨2, ![n, 21]⟩ : Shape) (rsqrt (addf (divf (shapeCast (⟨2, ![n, 1]⟩ : Shape) (multiReduction .add [1] (⟨1, ![n]⟩ : Shape) (mulf (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc))) 0x00000000#32 h hφ hacc) hs) (broadcast (⟨2, ![n, 1]⟩ : Shape) (Scalar.ofBits .f32 0x41A80000#32 : Ideal .f32))) (broadcast (⟨2, ![n, 1]⟩ : Shape) (Scalar.ofBits .f32 0x3727C5AC#32 : Ideal .f32)))) hbc (ix2 r l)
        * broadcastTo (⟨2, ![n, 21]⟩ : Shape) (shapeCast (⟨2, ![1, 21]⟩ : Shape) gam hs1) hb1 (ix2 r l)
      + broadcastTo (⟨2, ![n, 21]⟩ : Shape) (shapeCast (⟨2, ![1, 21]⟩ : Shape) bet hs1) hb1 (ix2 r l) = _
  rw [broadcastTo_a1_ab_apply, broadcastTo_1b_ab_apply, broadcastTo_1b_ab_apply, shapeCast_self, shapeCast_self,
    centredV_apply]
  show _ * Ideal.rsqrt ((divf (shapeCast (⟨2, ![n, 1]⟩ : Shape) (multiReduction .add [1] (⟨1, ![n]⟩ : Shape) (mulf (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc))) 0x00000000#32 h hφ hacc) hs) (broadcast (⟨2, ![n, 1]⟩ : Shape) (Scalar.ofBits .f32 0x41A80000#32 : Ideal .f32))) (ix2 r (0 : Fin 1)) + eps) * _ + _ = _
  rw [meanV_apply]
  have hsq : (fun l' : Fin 21 => (mulf (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc))) (ix2 r l'))
      = fun l' => (g (ix2 r l') - mean (fun l'' => g (ix2 r l''))) * (g (ix2 r l') - mean (fun l'' => g (ix2 r l''))) :=
    funext fun l' => by
      show (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (ix2 r l') * (subf g (broadcastTo (⟨2, ![n, 21]⟩ : Shape) (divf (shapeCast (⟨2, ![n, 1]⟩ : Shape) (multiReduction .add [1] (⟨1, ![n]⟩ : Shape) g 0x00000000#32 h hφ hacc) hs) (broadcast (⟨2, ![n, 1]⟩ : Shape) (Scalar.ofBits .f32 0x41A80000#32 : Ideal .f32))) hbc)) (ix2 r l') = _
      rw [centredV_apply]
  rw [hsq]
  rfl

/-! ## The kernel's four products are plain ones -/

theorem plain1 : Plain dot_S2048x256_S256x49_S2048x49_1_0_0_1_n_n := ⟨rfl, rfl, rfl, rfl, rfl, rfl⟩
theorem plain2 : Plain dot_S2048x49_S49x49_S2048x49_1_0_0_1_n_n := ⟨rfl, rfl, rfl, rfl, rfl, rfl⟩
theorem plain3 : Plain dot_S2048x49_S49x21_S2048x21_1_0_0_1_n_n := ⟨rfl, rfl, rfl, rfl, rfl, rfl⟩
theorem plain4 : Plain dot_S2048x21_S21x4_S2048x4_1_0_0_1_n_n := ⟨rfl, rfl, rfl, rfl, rfl, rfl⟩

/-! ## The three parts of the stored value -/

/-- The first two layers at (r, j). -/
theorem pay2_apply (v0 : Vec Ideal S2048x256 .f32) (v2 : Vec Ideal S49x256 .f32) (v6 : Vec Ideal S1x49 .f32)
    (v20 : Vec Ideal S49x49 .f32) (v26 : Vec Ideal S1x49 .f32) (r : Fin 2048) (j : Fin 49) :
    k0_pay2 v0 v2 v6 v20 v26 (ix2 r j)
      = act (layer (fun i => act (layer (fun k => v0 (ix2 r k)) (fun a k => v2 (ix2 a k)) (fun a => v6 (ix2 (0 : Fin 1) a)) i))
          (fun a i => v20 (ix2 a i)) (fun a => v26 (ix2 (0 : Fin 1) a)) j) := by
  refine (actV_apply _ (ix2 r j)).trans (congrArg act ?_)
  refine (affine_apply plain2 _ _ _ _ _ _ r j).trans ?_
  refine layer_congr (fun i => ?_) (fun i => ?_) rfl
  · refine (truncf_apply (ψ := .bf16) (φ := .f32) _ bitsLt_bf16_f32 (ix2 r i)).trans ?_
    exact (actV_apply _ (ix2 r i)).trans (congrArg act (affine_apply plain1 _ _ _ _ _ _ r i))
  · exact (truncf_apply (ψ := .bf16) (φ := .f32) _ bitsLt_bf16_f32 (ix2 j i)).trans (congrFun (shapeCast_self v20 _) (ix2 j i))

/-- The third layer and the normalisation at (r, l), from the second layer's array. -/
theorem pay3_apply (v39 : FVec Ideal S2048x49 .f32) (v40 : Vec Ideal S21x49 .f32) (v45 v75 v79 : Vec Ideal S1x21 .f32)
    (r : Fin 2048) (l : Fin 21) :
    k0_pay3 v39 v40 v45 v75 v79 (ix2 r l)
      = norm (fun l' => act (layer (fun j => v39 (ix2 r j)) (fun a j => v40 (ix2 a j)) (fun a => v45 (ix2 (0 : Fin 1) a)) l'))
          (fun l' => v75 (ix2 (0 : Fin 1) l')) (fun l' => v79 (ix2 (0 : Fin 1) l')) l := by
  refine (truncf_apply (ψ := .bf16) (φ := .f32) _ bitsLt_bf16_f32 (ix2 r l)).trans ?_
  refine (normV_apply _ _ _ _ _ _ v75 v79 _ _ r l).trans ?_
  refine norm_congr _ _ (fun l' => ?_) l
  exact (actV_apply _ (ix2 r l')).trans (congrArg act (affine_apply plain3 _ _ _ _ _ _ r l'))

/-- The output layer at (r, q), from the normalised array. -/
theorem pay1_apply (v83 : FVec Ideal S2048x21 .bf16) (v84 : Vec Ideal S4x21 .f32) (v88 : Vec Ideal S1x4 .f32)
    (r : Fin 2048) (q : Fin 4) :
    k0_pay1 v83 v84 v88 (ix2 r q)
      = layer (fun l => v83 (ix2 r l)) (fun a l => v84 (ix2 a l)) (fun a => v88 (ix2 (0 : Fin 1) a)) q :=
  affine_apply plain4 _ _ _ _ _ _ r q

/-- The stored entry (r, q) is the row chain on row r of the loaded input block, over the loaded tables. -/
theorem body_apply (x0 : Vec Ideal S2048x256 .f32) (x1 : Vec Ideal S49x256 .f32) (x2 : Vec Ideal S1x49 .f32)
    (x3 : Vec Ideal S49x49 .f32) (x4 : Vec Ideal S1x49 .f32) (x5 : Vec Ideal S21x49 .f32) (x6 x7 x8 : Vec Ideal S1x21 .f32)
    (x9 : Vec Ideal S4x21 .f32) (x10 : Vec Ideal S1x4 .f32) (r : Fin 2048) (q : Fin 4) :
    k0_pay1 (k0_pay3 (k0_pay2 x0 x1 x2 x3 x4) x5 x6 x7 x8) x9 x10 (ix2 r q)
      = rowCore (fun k => x0 (ix2 r k)) (fun a k => x1 (ix2 a k)) (fun a => x2 (ix2 (0 : Fin 1) a))
          (fun a i => x3 (ix2 a i)) (fun a => x4 (ix2 (0 : Fin 1) a)) (fun a j => x5 (ix2 a j))
          (fun a => x6 (ix2 (0 : Fin 1) a)) (fun a => x7 (ix2 (0 : Fin 1) a)) (fun a => x8 (ix2 (0 : Fin 1) a))
          (fun a l => x9 (ix2 a l)) (fun a => x10 (ix2 (0 : Fin 1) a)) q := by
  rw [pay1_apply]
  unfold rowCore
  refine layer_congr (fun l => ?_) (fun _ => rfl) rfl
  rw [pay3_apply]
  exact norm_congr _ _ (fun l' => congrArg act (layer_congr (fun j => pay2_apply x0 x1 x2 x3 x4 r j) (fun _ => rfl) rfl)) l

end Cert.KernelPay

end
-- ==== Proof.LibMidAxis.lean ====
/-
  LAYOUT OPERATIONS AROUND A MIDDLE AXIS, READ AT AN INDEX (general lemmas; they mention no program).

  A matrix [a, b] (one row per item) and a table [c, b] (one row per class) are combined over a new middle axis into
  [a, c, b]: the matrix is recast as [a, 1, b] and repeated along the middle axis, the table is recast as [1, c, b]
  (the library's leading-unit cast) and repeated along the leading axis. Around that sit two regroupings of the
  leading axis: an [a, b, c] array read as [n, c] with n = a · b (row i · b + j is the pair (i, j)), and an [n, w, c]
  array read back as [a, b, w, c]. And the two steps by which a vector [b] becomes the repeated row of [c, b].
  Every statement reads the operation at an index written by its coordinates and names the operand's entry it is.
-/
import Idealize.ShloMosaic.Lib.Pipeline.Value
import Idealize.ShloMosaic.Lib.ValueIdx

namespace Cert.Lib.MidAxis

open Idealize.ShloMosaic Idealize.ShloMosaic.ValueIdx

variable {α : Type}

/-- An `[a, b]` matrix recast as `[a, 1, b]` reads, at `(i, u, j)`, the matrix at `(i, j)`, whatever the unit coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array repeated along its middle axis to `[a, c, b]` reads, at `(i, w, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (w : Fin c) (j : Fin b) :
    broadcastTo ⟨3, ![a, c, b]⟩ v h (ix3 i w j) = v (ix3 i (0 : Fin 1) j) := by
  refine broadcastTo_apply v h (ix3 i w j) (ix3 i (0 : Fin 1) j) fun ax => ?_
  match ax with
  | ⟨0, _⟩ =>
    show i.val = if a = 1 then 0 else i.val
    split
    · have := i.isLt; omega
    · rfl
  | ⟨1, _⟩ =>
    show (0 : ℕ) = if (1 : ℕ) = 1 then 0 else w.val
    rw [if_pos rfl]
  | ⟨2, _⟩ =>
    show j.val = if b = 1 then 0 else j.val
    split
    · have := j.isLt; omega
    · rfl

/-- A `[1, c, b]` array repeated along its leading axis to `[a, c, b]` reads, at `(i, w, j)`, the operand at `(0, w, j)`. -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (w : Fin c) (j : Fin b) :
    broadcastTo ⟨3, ![a, c, b]⟩ v h (ix3 i w j) = v (ix3 (0 : Fin 1) w j) := by
  refine broadcastTo_apply v h (ix3 i w j) (ix3 (0 : Fin 1) w j) fun ax => ?_
  match ax with
  | ⟨0, _⟩ =>
    show (0 : ℕ) = if (1 : ℕ) = 1 then 0 else i.val
    rw [if_pos rfl]
  | ⟨1, _⟩ =>
    show w.val = if c = 1 then 0 else w.val
    split
    · have := w.isLt; omega
    · rfl
  | ⟨2, _⟩ =>
    show j.val = if b = 1 then 0 else j.val
    split
    · have := j.isLt; omega
    · rfl

/-- An `[a, b, c]` array read as `[n, c]` (its two leading axes taken as one) reads, at `(r, k)` with `r = i · b + j`,
    the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, w, c]` array read as `[a, b, w, c]` (its leading axis split in two) reads, at `(i, j, u, k)`, the operand at
    `(r, u, k)` with `r = i · b + j`. -/
theorem shapeCast_nwc_abwc_apply {a b w c n : ℕ} (x : (⟨3, ![n, w, c]⟩ : Shape).Idx → α)
    (h : (⟨3, ![n, w, c]⟩ : Shape).ShapeCasts ⟨4, ![a, b, w, c]⟩) (i : Fin a) (j : Fin b) (u : Fin w) (k : Fin c) (r : Fin n)
    (hr : r.val = i.val * b + j.val) : shapeCast ⟨4, ![a, b, w, c]⟩ x h (ix4 i j u k) = x (ix3 r u k) :=
  shapeCast_apply x h _ _ (by
    rw [Shape.rowMajor_val_three, Shape.rowMajor_val_four]
    show (r.val * w + u.val) * c + k.val = ((i.val * b + j.val) * w + u.val) * c + k.val
    rw [hr])

/-- A vector `[b]` placed as the one row of `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The one row `[1, b]` repeated to `[c, b]` reads, at `(w, j)`, the row at `j`. -/
theorem broadcastInDim_1b_cb_apply {b c : ℕ} (x : (⟨2, ![1, b]⟩ : Shape).Idx → α)
    (h : (⟨2, ![1, b]⟩ : Shape).BroadcastsInDim ⟨2, ![c, b]⟩ ![0, 1]) (w : Fin c) (j : Fin b) :
    broadcastInDim ⟨2, ![c, b]⟩ ![0, 1] h x (ix2 w j) = x (ix2 (0 : Fin 1) j) := by
  refine broadcastInDim_apply _ h x (ix2 w j) (ix2 (0 : Fin 1) j) fun ax => ?_
  match ax with
  | ⟨0, _⟩ =>
    show (0 : ℕ) = if (1 : ℕ) = 1 then 0 else w.val
    rw [if_pos rfl]
  | ⟨1, _⟩ =>
    show j.val = if b = 1 then 0 else j.val
    split
    · have := j.isLt; omega
    · rfl

end Cert.Lib.MidAxis
-- ==== Proof.LibGroups.lean ====
/-
  A MATRIX READ AS ONE LONG ROW, AT AN INDEX (a general lemma; it mentions no program).

  An [a, b] array recast as the single row [1, n] with n = a · b lays its rows side by side: the row's entry at
  position r = i · b + j is the array's entry (i, j).
-/
import Idealize.ShloMosaic.Lib.Pipeline.Value
import Idealize.ShloMosaic.Lib.ValueIdx

namespace Cert.Lib.Groups

open Idealize.ShloMosaic Idealize.ShloMosaic.ValueIdx

variable {α : Type}

/-- An `[a, b]` array read as the one row `[1, n]` reads, at `(u, r)` with `r = i · b + j`, the operand at `(i, j)`. -/
theorem shapeCast_ab_1n_apply {a b n : ℕ} (x : (⟨2, ![a, b]⟩ : Shape).Idx → α)
    (h : (⟨2, ![a, b]⟩ : Shape).ShapeCasts ⟨2, ![1, n]⟩) (i : Fin a) (j : Fin b) (u : Fin 1) (r : Fin n)
    (hr : r.val = i.val * b + j.val) : shapeCast ⟨2, ![1, n]⟩ x h (ix2 u r) = x (ix2 i j) :=
  shapeCast_apply x h _ _ (by
    have hu : u.val = 0 := by omega
    rw [Shape.rowMajor_val_two, Shape.rowMajor_val_two]
    show i.val * b + j.val = u.val * n + r.val
    rw [hu, hr, Nat.zero_mul, Nat.zero_add])

end Cert.Lib.Groups
-- ==== Proof.KernelBlocks.lean ====
/-
  The kernel's result array.

  The grid has 128 steps; step t loads rows 2048 t … 2048 t + 2047 of the input and every weight table whole (the
  small tables after the reshapes that lay a vector out as one row, and the [7, 7, 49] table as [49, 49], group by
  group), and writes rows 2048 t … 2048 t + 2047 of the result. By the entry-by-entry reading of one step, the block
  it writes is the row chain on each of its rows; the 128 blocks tile the result array; so the array ends as the
  chain on every row of the input: `Spec.G` of the arguments.
-/
import proofs.«165092_j81922206204364_1_alg».proof.Proof.Gen.KernelIdeal.Value
import proofs.«165092_j81922206204364_1_alg».proof.Proof.KernelPay
import proofs.«165092_j81922206204364_1_alg».proof.Proof.LibMidAxis
import proofs.«165092_j81922206204364_1_alg».proof.Proof.LibGroups
import Idealize.ShloMosaic.Lib.StableHlo.Run
import Idealize.ShloMosaic.Lib.ValueLayout

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.Spec Cert.Lib.MidAxis Cert.Lib.Groups
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps, decided over the 128 grid points: the input's row block moves with the result's, every
    table stays at block (0, 0), and the result's block is (t₀, 0) with t₀ ≤ 127. -/
theorem idx_facts : ∀ t : Fin cfg0.N, win0_0.index t (0 : Fin 2) = win0_11.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (1 : Fin 2) = 0
    ∧ win0_11.index t (0 : Fin 2) ≤ 127 :=
  (by decide +kernel : ∀ t : Fin grid0.N, _)

/-- Every row block of the result is some grid point's. -/
theorem idx_onto : ∀ q0 : Fin 128, ∃ t : Fin cfg0.N, win0_11.index t (0 : Fin 2) = q0.val :=
  (by decide +kernel : ∀ q0 : Fin 128, ∃ t : Fin grid0.N, win0_11.index t (0 : Fin 2) = q0.val)

/-! ## What each window's block holds -/

/-- The input's block at point t is rows 2048 t₀ … 2048 t₀ + 2047 of the argument, t₀ the result's block row. -/
theorem iblk0_apply (c : Dev nD) (t : Fin cfg0.N) (x : S2048x256.Idx) (k : S262144x256.Idx)
    (hk0 : (k 0).val = win0_11.index t (0 : Fin 2) * 2048 + (x 0).val) (hk1 : (k 1).val = (x 1).val) :
    (iblk m c 0 t : Vec Ideal S2048x256 .f32) x = (m ((c : Thread nD τ).loc main_arg0) : S262144x256.Idx → EReal) k := by
  obtain ⟨e0, e1, e2, e3, e4, e5, e6, e7, e8, e9, e10, e11, e12, e13, e14, e15, e16, e17, e18, e19, e20, e21, e22, e23⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * (x 0).val = (k 0).val; omega
  | ⟨1, _⟩ => show win0_0.index t (1 : Fin 2) * 256 + 1 * (x 1).val = (k 1).val; omega

/-- The array window 2 stages: the argument reshaped. -/
theorem V_main_v0 (c : Dev nD) : (V m c main_v0 : S1x49.Idx → EReal) = shapeCast S1x49 (m ((c : Thread nD τ).loc main_arg2) : S49.Idx → EReal) shapeCasts_S49_S1x49 := by
  dsimp only [V, hostOps0]
  after_results
  rfl

/-- The array window 3 stages: the argument reshaped. -/
theorem V_main_v1 (c : Dev nD) : (V m c main_v1 : S49x49.Idx → EReal) = shapeCast S49x49 (m ((c : Thread nD τ).loc main_arg3) : S7x7x49.Idx → EReal) shapeCasts_S7x7x49_S49x49 := by
  dsimp only [V, hostOps0]
  after_results
  rfl

/-- The array window 4 stages: the argument reshaped. -/
theorem V_main_v2 (c : Dev nD) : (V m c main_v2 : S1x49.Idx → EReal) = shapeCast S1x49 (m ((c : Thread nD τ).loc main_arg4) : S7x7.Idx → EReal) shapeCasts_S7x7_S1x49 := by
  dsimp only [V, hostOps0]
  after_results
  rfl

/-- The array window 6 stages: the argument reshaped. -/
theorem V_main_v3 (c : Dev nD) : (V m c main_v3 : S1x21.Idx → EReal) = shapeCast S1x21 (m ((c : Thread nD τ).loc main_arg6) : S21.Idx → EReal) shapeCasts_S21_S1x21 := by
  dsimp only [V, hostOps0]
  after_results
  rfl

/-- The array window 7 stages: the argument reshaped. -/
theorem V_main_v4 (c : Dev nD) : (V m c main_v4 : S1x21.Idx → EReal) = shapeCast S1x21 (m ((c : Thread nD τ).loc main_arg7) : S21.Idx → EReal) shapeCasts_S21_S1x21 := by
  dsimp only [V, hostOps0]
  after_results
  rfl

/-- The array window 8 stages: the argument reshaped. -/
theorem V_main_v5 (c : Dev nD) : (V m c main_v5 : S1x21.Idx → EReal) = shapeCast S1x21 (m ((c : Thread nD τ).loc main_arg8) : S21.Idx → EReal) shapeCasts_S21_S1x21 := by
  dsimp only [V, hostOps0]
  after_results
  rfl

/-- The array window 10 stages: the argument reshaped. -/
theorem V_main_v6 (c : Dev nD) : (V m c main_v6 : S1x4.Idx → EReal) = shapeCast S1x4 (m ((c : Thread nD τ).loc main_arg10) : S4.Idx → EReal) shapeCasts_S4_S1x4 := by
  dsimp only [V, hostOps0]
  after_results
  rfl

/-- Window 1's block is its whole array at every grid point. -/
theorem iblk1_eq (c : Dev nD) (t : Fin cfg0.N) : (iblk m c 1 t : Vec Ideal S49x256 .f32) = (m ((c : Thread nD τ).loc main_arg1) : S49x256.Idx → EReal) := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_arg1 _ = _
  rw [V_main_arg1]
  refine congrArg _ (funext fun a => Fin.ext ?_)
  match a with
  | ⟨0, _⟩ => show win0_1.index t (0 : Fin 2) * 49 + 1 * (x 0).val = (x 0).val; omega
  | ⟨1, _⟩ => show win0_1.index t (1 : Fin 2) * 256 + 1 * (x 1).val = (x 1).val; omega

/-- Window 2's block is its whole array at every grid point, and that array is the reshaped argument. -/
theorem iblk2_eq (c : Dev nD) (t : Fin cfg0.N) : (iblk m c 2 t : Vec Ideal S1x49 .f32) = shapeCast S1x49 (m ((c : Thread nD τ).loc main_arg2) : S49.Idx → EReal) shapeCasts_S49_S1x49 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v0 _ = _
  rw [V_main_v0]
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 49 + 1 * (x 1).val = (x 1).val; omega

/-- Window 3's block is its whole array at every grid point, and that array is the reshaped argument. -/
theorem iblk3_eq (c : Dev nD) (t : Fin cfg0.N) : (iblk m c 3 t : Vec Ideal S49x49 .f32) = shapeCast S49x49 (m ((c : Thread nD τ).loc main_arg3) : S7x7x49.Idx → EReal) shapeCasts_S7x7x49_S49x49 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v1 _ = _
  rw [V_main_v1]
  refine congrArg _ (funext fun a => Fin.ext ?_)
  match a with
  | ⟨0, _⟩ => show win0_3.index t (0 : Fin 2) * 49 + 1 * (x 0).val = (x 0).val; omega
  | ⟨1, _⟩ => show win0_3.index t (1 : Fin 2) * 49 + 1 * (x 1).val = (x 1).val; omega

/-- Window 4's block is its whole array at every grid point, and that array is the reshaped argument. -/
theorem iblk4_eq (c : Dev nD) (t : Fin cfg0.N) : (iblk m c 4 t : Vec Ideal S1x49 .f32) = shapeCast S1x49 (m ((c : Thread nD τ).loc main_arg4) : S7x7.Idx → EReal) shapeCasts_S7x7_S1x49 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v2 _ = _
  rw [V_main_v2]
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 49 + 1 * (x 1).val = (x 1).val; omega

/-- Window 5's block is its whole array at every grid point. -/
theorem iblk5_eq (c : Dev nD) (t : Fin cfg0.N) : (iblk m c 5 t : Vec Ideal S21x49 .f32) = (m ((c : Thread nD τ).loc main_arg5) : S21x49.Idx → EReal) := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_arg5 _ = _
  rw [V_main_arg5]
  refine congrArg _ (funext fun a => Fin.ext ?_)
  match a with
  | ⟨0, _⟩ => show win0_5.index t (0 : Fin 2) * 21 + 1 * (x 0).val = (x 0).val; omega
  | ⟨1, _⟩ => show win0_5.index t (1 : Fin 2) * 49 + 1 * (x 1).val = (x 1).val; omega

/-- Window 6's block is its whole array at every grid point, and that array is the reshaped argument. -/
theorem iblk6_eq (c : Dev nD) (t : Fin cfg0.N) : (iblk m c 6 t : Vec Ideal S1x21 .f32) = shapeCast S1x21 (m ((c : Thread nD τ).loc main_arg6) : S21.Idx → EReal) shapeCasts_S21_S1x21 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v3 _ = _
  rw [V_main_v3]
  refine congrArg _ (funext fun a => Fin.ext ?_)
  match a with
  | ⟨0, _⟩ => show win0_6.index t (0 : Fin 2) * 1 + 1 * (x 0).val = (x 0).val; omega
  | ⟨1, _⟩ => show win0_6.index t (1 : Fin 2) * 21 + 1 * (x 1).val = (x 1).val; omega

/-- Window 7's block is its whole array at every grid point, and that array is the reshaped argument. -/
theorem iblk7_eq (c : Dev nD) (t : Fin cfg0.N) : (iblk m c 7 t : Vec Ideal S1x21 .f32) = shapeCast S1x21 (m ((c : Thread nD τ).loc main_arg7) : S21.Idx → EReal) shapeCasts_S21_S1x21 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v4 _ = _
  rw [V_main_v4]
  refine congrArg _ (funext fun a => Fin.ext ?_)
  match a with
  | ⟨0, _⟩ => show win0_7.index t (0 : Fin 2) * 1 + 1 * (x 0).val = (x 0).val; omega
  | ⟨1, _⟩ => show win0_7.index t (1 : Fin 2) * 21 + 1 * (x 1).val = (x 1).val; omega

/-- Window 8's block is its whole array at every grid point, and that array is the reshaped argument. -/
theorem iblk8_eq (c : Dev nD) (t : Fin cfg0.N) : (iblk m c 8 t : Vec Ideal S1x21 .f32) = shapeCast S1x21 (m ((c : Thread nD τ).loc main_arg8) : S21.Idx → EReal) shapeCasts_S21_S1x21 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v5 _ = _
  rw [V_main_v5]
  refine congrArg _ (funext fun a => Fin.ext ?_)
  match a with
  | ⟨0, _⟩ => show win0_8.index t (0 : Fin 2) * 1 + 1 * (x 0).val = (x 0).val; omega
  | ⟨1, _⟩ => show win0_8.index t (1 : Fin 2) * 21 + 1 * (x 1).val = (x 1).val; omega

/-- Window 9's block is its whole array at every grid point. -/
theorem iblk9_eq (c : Dev nD) (t : Fin cfg0.N) : (iblk m c 9 t : Vec Ideal S4x21 .f32) = (m ((c : Thread nD τ).loc main_arg9) : S4x21.Idx → EReal) := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_arg9 _ = _
  rw [V_main_arg9]
  refine congrArg _ (funext fun a => Fin.ext ?_)
  match a with
  | ⟨0, _⟩ => show win0_9.index t (0 : Fin 2) * 4 + 1 * (x 0).val = (x 0).val; omega
  | ⟨1, _⟩ => show win0_9.index t (1 : Fin 2) * 21 + 1 * (x 1).val = (x 1).val; omega

/-- Window 10's block is its whole array at every grid point, and that array is the reshaped argument. -/
theorem iblk10_eq (c : Dev nD) (t : Fin cfg0.N) : (iblk m c 10 t : Vec Ideal S1x4 .f32) = shapeCast S1x4 (m ((c : Thread nD τ).loc main_arg10) : S4.Idx → EReal) shapeCasts_S4_S1x4 := by
  obtain ⟨e0, e1, e2, e3, e4, e5, e6, e7, e8, e9, e10, e11, e12, e13, e14, e15, e16, e17, e18, e19, e20, e21, e22, e23⟩ := idx_facts t
  funext x
  unfold iblk
  rw [View.read_apply]
  show V m c main_v6 _ = _
  rw [V_main_v6]
  refine congrArg _ (funext fun a => Fin.ext ?_)
  match a with
  | ⟨0, _⟩ => show win0_10.index t (0 : Fin 2) * 1 + 1 * (x 0).val = (x 0).val; omega
  | ⟨1, _⟩ => show win0_10.index t (1 : Fin 2) * 4 + 1 * (x 1).val = (x 1).val; omega

/-! ## The result array -/

/-- The result array: the row chain on every row of the input, over the argument tables. -/
abbrev result (c : Dev nD) : Buf (Elt Ideal) ((c : Thread nD τ).loc main_v7) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point t writes back is block t of the result array. -/
theorem flushed_eq (c : Dev nD) (t : Fin cfg0.N) :
    (dats m 0 c).flushed 11 t = ((cfg0.win 11).blk t).view.read (Elt Ideal) (result m c) := by
  obtain ⟨e0, e1, e2, e3, e4, e5, e6, e7, e8, e9, e10, e11, e12, e13, e14, e15, e16, e17, e18, e19, e20, e21, e22, e23⟩ := idx_facts t
  rw [flushed11]
  unfold out0_11
  rw [View.canon_unit_zero hz]
  simp only [View.ld_unit_zero (S := S2048x256) hz, View.ld_unit_zero (S := S49x256) hz, View.ld_unit_zero (S := S1x49) hz,
    View.ld_unit_zero (S := S49x49) hz, View.ld_unit_zero (S := S21x49) hz, View.ld_unit_zero (S := S1x21) hz,
    View.ld_unit_zero (S := S4x21) hz, View.ld_unit_zero (S := S1x4) hz]
  funext y
  obtain ⟨r, q, rfl⟩ : ∃ (r : Fin 2048) (q : Fin 4), y = ix2 r q := ⟨y 0, y 1, eq_ix2 y⟩
  rw [View.read_apply]
  show k0_pay1 (k0_pay3 (k0_pay2 (iblk m c 0 t) (iblk m c 1 t) (iblk m c 2 t) (iblk m c 3 t) (iblk m c 4 t)) (iblk m c 5 t)
          (iblk m c 6 t) (iblk m c 7 t) (iblk m c 8 t)) (iblk m c 9 t) (iblk m c 10 t) (ix2 r q) = _
  refine (KernelPay.body_apply _ _ _ _ _ _ _ _ _ _ _ r q).trans ?_
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix2 r q))
  unfold G
  refine rowCore_congr (fun k => ?_) (fun a k => ?_) (fun a => ?_) (fun a k => ?_) (fun a => ?_) (fun a k => ?_)
    (fun a => ?_) (fun a => ?_) (fun a => ?_) (fun a k => ?_) (fun a => ?_) ?_
  · exact iblk0_apply m c t (ix2 r k) _
      (by show win0_11.index t (0 : Fin 2) * 2048 + 1 * r.val = win0_11.index t (0 : Fin 2) * 2048 + r.val; omega) rfl
  · exact congrFun (iblk1_eq m c t) (ix2 a k)
  · exact (congrFun (iblk2_eq m c t) (ix2 (0 : Fin 1) a)).trans (shapeCast_a_1a_apply _ _ (0 : Fin 1) a)
  · exact (congrFun (iblk3_eq m c t) (ix2 a k)).trans
      (shapeCast_abc_nc_apply _ _ (hi7 a) (lo7 a) k a (hi7_lo7 a).symm)
  · exact (congrFun (iblk4_eq m c t) (ix2 (0 : Fin 1) a)).trans
      (shapeCast_ab_1n_apply _ _ (hi7 a) (lo7 a) (0 : Fin 1) a (hi7_lo7 a).symm)
  · exact congrFun (iblk5_eq m c t) (ix2 a k)
  · exact (congrFun (iblk6_eq m c t) (ix2 (0 : Fin 1) a)).trans (shapeCast_a_1a_apply _ _ (0 : Fin 1) a)
  · exact (congrFun (iblk7_eq m c t) (ix2 (0 : Fin 1) a)).trans (shapeCast_a_1a_apply _ _ (0 : Fin 1) a)
  · exact (congrFun (iblk8_eq m c t) (ix2 (0 : Fin 1) a)).trans (shapeCast_a_1a_apply _ _ (0 : Fin 1) a)
  · exact congrFun (iblk9_eq m c t) (ix2 a k)
  · exact (congrFun (iblk10_eq m c t) (ix2 (0 : Fin 1) a)).trans (shapeCast_a_1a_apply _ _ (0 : Fin 1) a)
  · refine Fin.ext ?_
    show q.val = win0_11.index t (1 : Fin 2) * 4 + 1 * q.val
    omega

/-- An index of the result array is in point t's block iff each coordinate is in the block's range on its axis. -/
theorem mem_blk (t : Fin cfg0.N) (i : S262144x4.Idx) :
    i ∈ ((cfg0.win 11).blk t).view.set ↔ ∀ a : Fin 2, win0_11.index t a * S2048x4.size a ≤ (i a).val ∧ (i a).val < win0_11.index t a * S2048x4.size a + S2048x4.size a := by
  show i ∈ ((View.whole main_v7).slice (win0_11.rect t)).set ↔ _
  rw [View.set_slice_whole, Rect.mem_set_unit]
  exact Iff.rfl

/-- The 128 row blocks tile the result array: row i₀ is in the block of the point whose block row is i₀ / 2048. -/
theorem cover (i : S262144x4.Idx) : ∃ t : Fin cfg0.N, (cfg0.win 11).flush t = true ∧ i ∈ ((cfg0.win 11).blk t).view.set := by
  have hi0 : (i 0).val < 262144 := (i 0).isLt
  have hi1 : (i 1).val < 4 := (i 1).isLt
  obtain ⟨t, ht⟩ := idx_onto ⟨(i 0).val / 2048, by omega⟩
  have q0 : win0_11.index t (0 : Fin 2) = (i 0).val / 2048 := ht
  obtain ⟨e0, e1, e2, e3, e4, e5, e6, e7, e8, e9, e10, e11, e12, e13, e14, e15, e16, e17, e18, e19, e20, e21, e22, e23⟩ := idx_facts t
  refine ⟨t, flush0_11 t, ?_⟩
  rw [mem_blk]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 4 ≤ (i 1).val ∧ (i 1).val < win0_11.index t (1 : Fin 2) * 4 + 4; omega

/-- So the result array ends holding `result`. -/
theorem final (c : Dev nD) : (dats m 0 c).arrAt 11 cfg0.N = result m c :=
  (dats m 0 c).arrAt_eq_of_cover 11 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelValue

end
-- ==== Proof.LibRowNetLayout.lean ====
/-
  LAYOUT OPERATIONS OF A ROW-WISE NETWORK, READ AT AN INDEX (general lemmas; they mention no program).

  A table [a, b] of biases joins a batch [c, a, b] in two steps: it is placed as the one slab of [1, a, b] and that slab
  is repeated along the leading axis. A row statistic [a] joins its rows [a, b] in two steps as well: it is placed as
  the column [a, 1] and the column is repeated along the second axis. A scalar is repeated over any shape. An array
  [a, b, c] read as [a, n] with n = b · c lays each item's b groups of c side by side: column p · c + q is the pair
  (p, q). And the sum over the second axis of [a, b], on the extended reals, is the initial value plus the finite sum
  over that axis's coordinates. Every statement reads the operation at an index written by its coordinates and names
  the operand's entry it is.
-/
import Idealize.ShloMosaic.Lib.Pipeline.Value
import Idealize.ShloMosaic.Lib.ValueIdx
import Idealize.ShloMosaic.PureOps.Ideal.Laws

noncomputable section

open scoped BigOperators

namespace Cert.RefLayout

open Idealize.ShloMosaic Idealize.ShloMosaic.ValueIdx

variable {α : Type}

/-- A scalar repeated over a shape reads, at every index, the scalar. -/
theorem broadcastInDim_scalar_apply {t : Shape} (dims : Fin 0 → Fin t.rank) (x : (⟨0, ![]⟩ : Shape).Idx → α)
    (h : (⟨0, ![]⟩ : Shape).BroadcastsInDim t dims) (j : t.Idx) : broadcastInDim t dims h x j = x ix0 :=
  broadcastInDim_apply dims h x j ix0 fun a => a.elim0

/-- A table `[a, b]` placed as the one slab of `[1, a, b]` reads, at `(u, i, j)`, the table at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply _ h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- The one slab `[1, a, b]` repeated to `[c, a, b]` reads, at `(w, i, j)`, the slab at `(0, i, j)`. -/
theorem broadcastInDim_1ab_cab_apply {a b c : ℕ} (x : (⟨3, ![1, a, b]⟩ : Shape).Idx → α)
    (h : (⟨3, ![1, a, b]⟩ : Shape).BroadcastsInDim ⟨3, ![c, a, b]⟩ ![0, 1, 2]) (w : Fin c) (i : Fin a) (j : Fin b) :
    broadcastInDim ⟨3, ![c, a, b]⟩ ![0, 1, 2] h x (ix3 w i j) = x (ix3 (0 : Fin 1) i j) := by
  refine broadcastInDim_apply _ h x (ix3 w i j) (ix3 (0 : Fin 1) i j) fun ax => ?_
  match ax with
  | ⟨0, _⟩ =>
    show (0 : ℕ) = if (1 : ℕ) = 1 then 0 else w.val
    rw [if_pos rfl]
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[a]` placed as the column `[a, 1]` reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column `[a, 1]` repeated to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[a, b, c]` array read as `[a, n]` with `n = b · c` (its two trailing axes taken as one) reads, at `(i, r)` with
    `r = p · c + q`, the operand at `(i, p, q)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (p : Fin b) (q : Fin c) (r : Fin n)
    (hr : r.val = p.val * c + q.val) : shapeCast ⟨2, ![a, n]⟩ x h (ix2 i r) = x (ix3 i p q) :=
  shapeCast_apply x h _ _ (by
    rw [Shape.rowMajor_val_three, Shape.rowMajor_val_two]
    show (i.val * b + p.val) * c + q.val = i.val * n + r.val
    rw [hr, hn, Nat.add_mul, Nat.mul_assoc, Nat.add_assoc])

/-- The coordinates of the source index a sum over the second axis of `[a, b]` visits: row `i`, column `k`. -/
theorem lift_rows {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

/-- The sum over the second axis of `[a, b]`, on the extended reals, read at `i`: the initial value plus the sum over
    the columns `k` of the operand at `(i, k)`. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ k : Fin b, x (ix2 i k) := by
  rw [Ideal.hostReduceAdd_single h' h]
  refine congrArg (init + ·) (Finset.sum_congr rfl fun k _ => ?_)
  exact congrArg x (lift_rows h i k)

end Cert.RefLayout

end
-- ==== Proof.RefValue.lean ====
/-
  THE REFERENCE PROGRAM'S RESULT IS THE ROW-WISE CHAIN.

  The reference computes its result array through named intermediate arrays: the first layer's pre-activation, the
  second layer's (seven groups of seven), the third layer's, its activation g, the row mean of g and g less its mean.
  Each is read here at one index, written by its coordinates, as the specification's scalar expression of that row:
  an affine layer is a finite sum plus a bias, the activation is the specification's `act`, the regrouping [7, 7] → 49
  reads group j / 7 at place j % 7, a row sum is the finite sum over the 21 entries. The last theorem puts the stages
  together: the result array is the specification's `G` of the eleven argument arrays.
-/
import proofs.«165092_j81922206204364_1_alg».proof.Proof.Gen.ReferenceIdeal.Run
import proofs.«165092_j81922206204364_1_alg».proof.Proof.Spec
import proofs.«165092_j81922206204364_1_alg».proof.Proof.LibRowDots
import proofs.«165092_j81922206204364_1_alg».proof.Proof.LibMidAxis
import proofs.«165092_j81922206204364_1_alg».proof.Proof.LibRowNetLayout
import Idealize.ShloMosaic.Lib.ValueLayout

noncomputable section

open scoped BigOperators

namespace Cert.RefValue

open Cert.ReferenceIdeal Cert.ReferenceIdeal.Gen Cert.ReferenceIdeal.Value Idealize.ShloMosaic Idealize.ShloMosaic.TcCoe
  Idealize.ShloMosaic.StableHlo Idealize.ShloMosaic.ValueIdx
open Cert.Spec Cert.Lib.RowDots Cert.Lib.MidAxis Cert.RefLayout

/-! ## The four products' dimension numbers -/

theorem plain_in : Plain (dot_S262144x256_S256x49_S262144x49_1_0_0_1_n_n) := ⟨rfl, rfl, rfl, rfl, rfl, rfl⟩
theorem grouped_n : Grouped (dot_S262144x49_S7x7x49_S262144x7x7_1_2_0_01_n_n) := ⟨rfl, rfl, rfl, rfl, rfl, rfl⟩
theorem plain_int : Plain (dot_S262144x49_S49x21_S262144x21_1_0_0_1_n_n) := ⟨rfl, rfl, rfl, rfl, rfl, rfl⟩
theorem plain_out : Plain (dot_S262144x21_S21x4_S262144x4_1_0_0_1_n_n) := ⟨rfl, rfl, rfl, rfl, rfl, rfl⟩

/-! ## The activation, as the reference spells it, at an index -/

/-- The reference's activation of an array `z` of any shape, the logistic function written as 1 / (1 + e^(−t)) and
    the constants repeated over the shape, reads at every index the specification's `act` of `z` there. -/
theorem act_apply {s : Shape} (h : S_.BroadcastsInDim s (![] : Fin 0 → Fin s.rank)) (z : FVec Ideal s .f32) (j : s.Idx) :
    mulf (Host.divf (broadcastInDim s ![] h (constant (F := Ideal) S_ .f32 0x3F800000#32))
        (addf (broadcastInDim s ![] h (constant (F := Ideal) S_ .f32 0x3F800000#32))
          (Host.exp (Host.negf (Host.divf z (broadcastInDim s ![] h (constant (F := Ideal) S_ .f32 0x3FCF1BBD#32)))))))
      (Host.divf (mulf z (broadcastInDim s ![] h (constant (F := Ideal) S_ .f32 0x3FCF1BBD#32)))
        (addf (broadcastInDim s ![] h (constant (F := Ideal) S_ .f32 0x3F800000#32)) (Host.absf z))) j = act (z j) :=
  act_expanded (z j)

/-! ## Host operations at an index, on the extended reals (each by definition) -/

/-- A host quotient at an index is the quotient of the elements. -/
theorem hostDivf_apply {s : Shape} (x y : FVec Ideal s .f32) (j : s.Idx) : Host.divf x y j = Ideal.div (x j) (y j) := rfl
/-- A host reciprocal square root at an index is that of the element. -/
theorem hostRsqrt_apply {s : Shape} (x : FVec Ideal s .f32) (j : s.Idx) : Host.rsqrt x j = Ideal.rsqrt (x j) := rfl
/-- A scalar constant repeated over a shape reads, at every index, the extended real its word encodes. -/
theorem splat_apply {s : Shape} (h : S_.BroadcastsInDim s (![] : Fin 0 → Fin s.rank)) (w : BitVec FTy.f32.bits) (j : s.Idx) :
    broadcastInDim s ![] h (constant (F := Ideal) S_ .f32 w) j = Ideal.ofBits .f32 w := rfl

variable (V0 : Valuation τ sig (Elt Ideal))

/-! ## The arguments and the chain's stages on row `b` -/

/-- The input array. -/
abbrev X : S262144x256.Idx → EReal := V0 (Proc.devRef .tc main_arg0)
abbrev Win : S49x256.Idx → EReal := V0 (Proc.devRef .tc main_arg1)
abbrev Bin : S49.Idx → EReal := V0 (Proc.devRef .tc main_arg2)
abbrev Wn : S7x7x49.Idx → EReal := V0 (Proc.devRef .tc main_arg3)
abbrev Bn : S7x7.Idx → EReal := V0 (Proc.devRef .tc main_arg4)
abbrev Wint : S21x49.Idx → EReal := V0 (Proc.devRef .tc main_arg5)
abbrev Bint : S21.Idx → EReal := V0 (Proc.devRef .tc main_arg6)
abbrev Gam : S21.Idx → EReal := V0 (Proc.devRef .tc main_arg7)
abbrev Bet : S21.Idx → EReal := V0 (Proc.devRef .tc main_arg8)
abbrev Wout : S4x21.Idx → EReal := V0 (Proc.devRef .tc main_arg9)
abbrev Bout : S4.Idx → EReal := V0 (Proc.devRef .tc main_arg10)

/-- The first layer's pre-activation on row `b`. -/
def a1 (b : Fin 262144) (i : Fin 49) : EReal :=
  layer (fun k => X V0 (ix2 b k)) (fun a k => Win V0 (ix2 a k)) (fun a => Bin V0 (ix1 a)) i
/-- The second layer's pre-activation on row `b`, position `j` being place `j % 7` of group `j / 7`. -/
def a2 (b : Fin 262144) (j : Fin 49) : EReal :=
  layer (fun i => act (a1 V0 b i)) (fun j a => Wn V0 (ix3 (hi7 j) (lo7 j) a)) (fun j => Bn V0 (ix2 (hi7 j) (lo7 j))) j
/-- The third layer's pre-activation on row `b`. -/
def a3 (b : Fin 262144) (l : Fin 21) : EReal :=
  layer (fun j => act (a2 V0 b j)) (fun l j => Wint V0 (ix2 l j)) (fun l => Bint V0 (ix1 l)) l
/-- The third layer's activation on row `b`: the 21 numbers the normalisation is taken over. -/
def g (b : Fin 262144) (l : Fin 21) : EReal := act (a3 V0 b l)

/-! ## The named intermediate arrays at an index -/

/-- The first pre-activation array at `(b, i)`. -/
theorem v4_apply (b : Fin 262144) (i : Fin 49) : res_main_v4 V0 (ix2 b i) = a1 V0 b i := by
  unfold res_main_v4 a1 layer
  simp only [Host.dotGeneral]
  rw [addf_apply, plain_in.dotGeneral_apply, broadcastInDim_1b_cb_apply, broadcastInDim_b_1b_apply]
  refine congrArg (· + _) (Finset.sum_congr rfl fun k _ => ?_)
  show _ * transpose S256x49 [1, 0] (V0 (Proc.devRef .tc main_arg1)) transposes_S49x256_S256x49_1_0 (ix2 k i) = _
  rw [transpose_ix2_apply]

/-- The second pre-activation array at `(b, p, q)`: the activated first layer against weight row `(p, q)`. -/
theorem v23_apply (b : Fin 262144) (p q : Fin 7) :
    res_main_v23 V0 (ix3 b p q) = (∑ k : Fin 49, act (a1 V0 b k) * Wn V0 (ix3 p q k)) + Bn V0 (ix2 p q) := by
  unfold res_main_v23
  simp only [Host.dotGeneral]
  rw [addf_apply, grouped_n.dotGeneral_apply, broadcastInDim_1ab_cab_apply, broadcastInDim_ab_1ab_apply]
  refine congrArg (· + _) (Finset.sum_congr rfl fun k _ => ?_)
  refine congrArg (· * _) ?_
  exact (act_apply bcast_S_S262144x49 (res_main_v4 V0) (ix2 b k)).trans (congrArg act (v4_apply V0 b k))

/-- … so at group `j / 7`, place `j % 7` it is the chain's second pre-activation at position `j`. -/
theorem v23_a2 (b : Fin 262144) (j : Fin 49) : res_main_v23 V0 (ix3 b (hi7 j) (lo7 j)) = a2 V0 b j :=
  v23_apply V0 b (hi7 j) (lo7 j)

/-- The third pre-activation array at `(b, l)`: the regrouped activated second layer against the third weights. -/
theorem v44_apply (b : Fin 262144) (l : Fin 21) : res_main_v44 V0 (ix2 b l) = a3 V0 b l := by
  unfold res_main_v44 a3 layer
  simp only [Host.dotGeneral]
  rw [addf_apply, plain_int.dotGeneral_apply, broadcastInDim_1b_cb_apply, broadcastInDim_b_1b_apply]
  refine congrArg (· + _) (Finset.sum_congr rfl fun k _ => ?_)
  show shapeCast S262144x49 _ shapeCasts_S262144x7x7_S262144x49 (ix2 b k)
      * transpose S49x21 [1, 0] (V0 (Proc.devRef .tc main_arg5)) transposes_S21x49_S49x21_1_0 (ix2 k l) = _
  rw [transpose_ix2_apply, shapeCast_abc_an_apply rfl _ _ b (hi7 k) (lo7 k) k (hi7_lo7 k).symm]
  refine congrArg (· * _) ?_
  exact (act_apply bcast_S_S262144x7x7 (res_main_v23 V0) (ix3 b (hi7 k) (lo7 k))).trans (congrArg act (v23_a2 V0 b k))

/-- The third layer's activation array at `(b, l)`. -/
theorem v59_apply (b : Fin 262144) (l : Fin 21) : res_main_v59 V0 (ix2 b l) = g V0 b l := by
  unfold res_main_v59 g
  exact (act_apply bcast_S_S262144x21 (res_main_v44 V0) (ix2 b l)).trans (congrArg act (v44_apply V0 b l))

/-! ## The row statistics -/

/-- The reference's sum over the 21 entries of row `b`, from the initial value zero. -/
theorem rowsum_apply (Y : S262144x21.Idx → EReal) (b : Fin 262144) :
    Host.reduceAdd (F := Ideal) (φ := .f32) Y (constant (F := Ideal) S_ .f32 0x00000000#32) reducesTo_S262144x21_S262144_d1 h_S_ (ix1 b)
      = ∑ l : Fin 21, Y (ix2 b l) := by
  show Ideal.hostReduceAdd reducesTo_S262144x21_S262144_d1 Y (Ideal.ofBits .f32 0x00000000#32) (ix1 b) = _
  rw [hostReduceAdd_rows_apply _ (by decide), Ideal.ofBits_zero_f32, zero_add]

/-- The mean column at `(b, 0)`: the mean of the 21 activations of row `b`. -/
theorem v63_apply (b : Fin 262144) (u : Fin 1) : res_main_v63 V0 (ix2 b u) = mean (g V0 b) := by
  unfold res_main_v63 mean
  rw [hostDivf_apply, broadcastInDim_a_a1_apply, rowsum_apply, splat_apply]
  simp only [v59_apply]

/-- The centred activations at `(b, l)`. -/
theorem v65_apply (b : Fin 262144) (l : Fin 21) : res_main_v65 V0 (ix2 b l) = g V0 b l - mean (g V0 b) := by
  unfold res_main_v65
  rw [subf_apply, broadcastInDim_a1_ab_apply, v59_apply, v63_apply]

/-- The variance column plus ε at `(b, 0)`: the mean of the squared centred activations of row `b`, plus ε. -/
theorem var_apply (b : Fin 262144) (u : Fin 1) :
    addf (Host.divf (broadcastInDim S262144x1 ![0] bcast_S262144_S262144x1_0
          (Host.reduceAdd (mulf (res_main_v65 V0) (res_main_v65 V0)) (constant (F := Ideal) S_ .f32 0x00000000#32) reducesTo_S262144x21_S262144_d1 h_S_))
        (broadcastInDim S262144x1 ![] bcast_S_S262144x1 (constant (F := Ideal) S_ .f32 0x41A80000#32)))
      (broadcastInDim S262144x1 ![] bcast_S_S262144x1 (constant (F := Ideal) S_ .f32 0x3727C5AC#32)) (ix2 b u)
      = mean (fun l' => (g V0 b l' - mean (g V0 b)) * (g V0 b l' - mean (g V0 b))) + eps := by
  rw [addf_apply, hostDivf_apply, broadcastInDim_a_a1_apply, rowsum_apply, splat_apply, splat_apply]
  simp only [mulf_apply, v65_apply]
  rfl

/-! ## The normalised array and the result -/

/-- The normalised, scaled and shifted array, as the reference composes it. -/
def normed : S262144x21.Idx → EReal :=
  addf (mulf (mulf (subf (res_main_v59 V0) (broadcastInDim S262144x21 ![0, 1] bcast_S262144x1_S262144x21_0_1 (res_main_v63 V0))) (broadcastInDim S262144x21 ![0, 1] bcast_S262144x1_S262144x21_0_1 (Host.rsqrt (addf (Host.divf (broadcastInDim S262144x1 ![0] bcast_S262144_S262144x1_0 (Host.reduceAdd (mulf (res_main_v65 V0) (res_main_v65 V0)) (constant S_ .f32 0x00000000#32) reducesTo_S262144x21_S262144_d1 h_S_)) (broadcastInDim S262144x1 ![] bcast_S_S262144x1 (constant S_ .f32 0x41A80000#32))) (broadcastInDim S262144x1 ![] bcast_S_S262144x1 (constant S_ .f32 0x3727C5AC#32)))))) (broadcastInDim S262144x21 ![0, 1] bcast_S1x21_S262144x21_0_1 (broadcastInDim S1x21 ![1] bcast_S21_S1x21_1 (V0 (Proc.devRef .tc main_arg7))))) (broadcastInDim S262144x21 ![0, 1] bcast_S1x21_S262144x21_0_1 (broadcastInDim S1x21 ![1] bcast_S21_S1x21_1 (V0 (Proc.devRef .tc main_arg8))))

/-- It reads, at `(b, l)`, the specification's normalisation of row `b`'s 21 activations at `l`. -/
theorem normed_apply (b : Fin 262144) (l : Fin 21) :
    normed V0 (ix2 b l) = Spec.norm (g V0 b) (fun l => Gam V0 (ix1 l)) (fun l => Bet V0 (ix1 l)) l := by
  unfold normed Spec.norm
  rw [addf_apply, mulf_apply, mulf_apply, subf_apply, broadcastInDim_a1_ab_apply, broadcastInDim_a1_ab_apply,
    broadcastInDim_1b_cb_apply, broadcastInDim_b_1b_apply, broadcastInDim_1b_cb_apply, broadcastInDim_b_1b_apply,
    v59_apply, v63_apply, hostRsqrt_apply, var_apply]

/-- THE RESULT: the reference's result array is the specification's chain applied to each row of the input. -/
theorem result_eq (V0 : Valuation τ sig (Elt Ideal)) :
    addf (Host.dotGeneral dot_S262144x21_S21x4_S262144x4_1_0_0_1_n_n none (addf (mulf (mulf (subf (res_main_v59 V0) (broadcastInDim S262144x21 ![0, 1] bcast_S262144x1_S262144x21_0_1 (res_main_v63 V0))) (broadcastInDim S262144x21 ![0, 1] bcast_S262144x1_S262144x21_0_1 (Host.rsqrt (addf (Host.divf (broadcastInDim S262144x1 ![0] bcast_S262144_S262144x1_0 (Host.reduceAdd (mulf (res_main_v65 V0) (res_main_v65 V0)) (constant S_ .f32 0x00000000#32) reducesTo_S262144x21_S262144_d1 h_S_)) (broadcastInDim S262144x1 ![] bcast_S_S262144x1 (constant S_ .f32 0x41A80000#32))) (broadcastInDim S262144x1 ![] bcast_S_S262144x1 (constant S_ .f32 0x3727C5AC#32)))))) (broadcastInDim S262144x21 ![0, 1] bcast_S1x21_S262144x21_0_1 (broadcastInDim S1x21 ![1] bcast_S21_S1x21_1 (V0 (Proc.devRef .tc main_arg7))))) (broadcastInDim S262144x21 ![0, 1] bcast_S1x21_S262144x21_0_1 (broadcastInDim S1x21 ![1] bcast_S21_S1x21_1 (V0 (Proc.devRef .tc main_arg8))))) (transpose S21x4 [1, 0] (V0 (Proc.devRef .tc main_arg9)) transposes_S4x21_S21x4_1_0 : FVec Ideal S21x4 .f32)) (broadcastInDim S262144x4 ![0, 1] bcast_S1x4_S262144x4_0_1 (broadcastInDim S1x4 ![1] bcast_S4_S1x4_1 (V0 (Proc.devRef .tc main_arg10))))
      = Cert.Spec.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  funext i
  obtain ⟨b, q, rfl⟩ : ∃ (b : Fin 262144) (q : Fin 4), i = ix2 b q := ⟨i 0, i 1, eq_ix2 i⟩
  show addf (F := Ideal) (Host.dotGeneral (F := Ideal) (φ₁ := .f32) (φ₂ := .f32) dot_S262144x21_S21x4_S262144x4_1_0_0_1_n_n none (normed V0) _) _ (ix2 b q)
    = layer (Spec.norm (g V0 b) (fun l => Gam V0 (ix1 l)) (fun l => Bet V0 (ix1 l))) (fun q l => Wout V0 (ix2 q l)) (fun q => Bout V0 (ix1 q)) q
  unfold layer
  simp only [Host.dotGeneral]
  rw [addf_apply, plain_out.dotGeneral_apply, broadcastInDim_1b_cb_apply, broadcastInDim_b_1b_apply]
  refine congrArg (· + _) (Finset.sum_congr rfl fun l _ => ?_)
  show normed V0 (ix2 b l) * transpose S21x4 [1, 0] (V0 (Proc.devRef .tc main_arg9)) transposes_S4x21_S21x4_1_0 (ix2 l q) = _
  rw [transpose_ix2_apply, normed_apply]

end Cert.RefValue

end
-- ==== Proof.lean ====
/-
  The certificate: a Pallas kernel for a small row-wise network against its jnp reference.

  Each of the 262144 rows of the input goes, on its own, through three affine layers with the activation
  act s = logistic (s / φ) · (s · φ / (1 + |s|)), a normalisation over the 21 entries of the third layer's output, and
  a last affine layer into 4 numbers. The kernel walks the rows in 128 blocks of 2048 with every weight table resident,
  multiplies in bf16 (the identity on the extended reals), spells the logistic function as one operation and lays the
  second layer's [7, 7, 49] table out as [49, 49]; the reference works on whole arrays, spells the logistic function as
  1 / (1 + e^(−t)) and keeps the second layer as [·, 7, 7] before laying it out as 49. On the extended reals both are
  the same finite sums and the same pointwise operations in the same order, so no law beyond re-indexing the sums is
  used and the inputs' finiteness is never opened.

  `Spec` states the chain on one row and the result array `G`; `KernelPay` reads one grid step entry by entry;
  `KernelBlocks` assembles the kernel's result array from the 128 blocks; `RefValue` reads the reference's run stage
  by stage; here the five claims are put together.
-/
import proofs.«165092_j81922206204364_1_alg».proof.Defs
import proofs.«165092_j81922206204364_1_alg».proof.Proof.Gen.Kernel
import proofs.«165092_j81922206204364_1_alg».proof.Proof.Gen.Kernel.Skeleton
import proofs.«165092_j81922206204364_1_alg».proof.Proof.Gen.Kernel.Launch
import proofs.«165092_j81922206204364_1_alg».proof.Proof.Gen.Kernel.Points
import proofs.«165092_j81922206204364_1_alg».proof.Proof.Gen.Kernel.Frame
import proofs.«165092_j81922206204364_1_alg».proof.Proof.Gen.KernelIdeal
import proofs.«165092_j81922206204364_1_alg».proof.Proof.Gen.KernelIdeal.Skeleton
import proofs.«165092_j81922206204364_1_alg».proof.Proof.Gen.KernelIdeal.Launch
import proofs.«165092_j81922206204364_1_alg».proof.Proof.Gen.KernelIdeal.Points
import proofs.«165092_j81922206204364_1_alg».proof.Proof.Gen.KernelIdeal.Frame
import proofs.«165092_j81922206204364_1_alg».proof.Proof.Gen.ReferenceIdeal
import proofs.«165092_j81922206204364_1_alg».proof.Proof.Gen.Pre_finite_inputs
import proofs.«165092_j81922206204364_1_alg».proof.Proof.Gen.KernelIdeal.Value
import proofs.«165092_j81922206204364_1_alg».proof.Proof.Gen.ReferenceIdeal.Run
import proofs.«165092_j81922206204364_1_alg».proof.Proof.KernelBlocks
import proofs.«165092_j81922206204364_1_alg».proof.Proof.RefValue
import Idealize.ShloMosaic.Adequacy
import Idealize.ShloMosaic.Init

noncomputable section

namespace Cert.Proof

open Idealize.ShloMosaic Idealize.SL.Sem Cert.Kernel

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a chain of host operations: it runs to the end and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Spec.G` of their arguments, and the arguments agree. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.RefValue.result_eq (StableHlo.launchContents m' c)]
  show Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
